-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x3 : Shape := ⟨3, ![4, 8192, 3]⟩
abbrev S_ : Shape := ⟨0, ![]⟩

class Facts : Prop where
  bcast_S_S4x8192x3 : S_.BroadcastsInDim S4x8192x3 (![] : Fin 0 → Fin S4x8192x3.rank)
  reducesTo_S4x8192x3_S_d0_1_2 : S4x8192x3.ReducesTo [0, 1, 2] S_
  h_S_ : 0 < S_.numel

variable [Facts]

def fn {F : FTy → Type} [FloatOps F] (main_arg0 : FVec F S4x8192x3 .f32) (main_arg1 : FVec F S4x8192x3 .f32) : IVec S_ 1 :=
  let main_v0 : FVec F S4x8192x3 .f32 := Host.absf main_arg0
  let main_cst : FVec F S_ .f32 := constant S_ .f32 0x7F800000#32
  let main_v1 : FVec F S4x8192x3 .f32 := broadcastInDim S4x8192x3 ![] bcast_S_S4x8192x3 main_cst
  let main_v2 : IVec S4x8192x3 1 := cmpf .olt main_v0 main_v1
  let main_c : IVec S_ 1 := constantI S_ 1 1#1
  let main_v3 : IVec S_ 1 := (fun x v => Host.reduce IntOp.andi x v reducesTo_S4x8192x3_S_d0_1_2 h_S_) main_v2 main_c
  let main_v4 : FVec F S4x8192x3 .f32 := Host.absf main_arg1
  let main_cst_0 : FVec F S_ .f32 := constant S_ .f32 0x7F800000#32
  let main_v5 : FVec F S4x8192x3 .f32 := broadcastInDim S4x8192x3 ![] bcast_S_S4x8192x3 main_cst_0
  let main_v6 : IVec S4x8192x3 1 := cmpf .olt main_v4 main_v5
  let main_c_1 : IVec S_ 1 := constantI S_ 1 1#1
  let main_v7 : IVec S_ 1 := (fun x v => Host.reduce IntOp.andi x v reducesTo_S4x8192x3_S_d0_1_2 h_S_) main_v6 main_c_1
  let main_v8 : IVec S_ 1 := andi main_v3 main_v7
  main_v8
-- ==== Kernel.lean ====
abbrev S4x8192x3 : Shape := ⟨3, ![4, 8192, 3]⟩
abbrev S4x1x8192 : Shape := ⟨3, ![4, 1, 8192]⟩
abbrev S1x1024x3 : Shape := ⟨3, ![1, 1024, 3]⟩
abbrev S1x1x1024 : Shape := ⟨3, ![1, 1, 1024]⟩
abbrev S1x1x8192 : Shape := ⟨3, ![1, 1, 8192]⟩
abbrev S1024 : Shape := ⟨1, ![1024]⟩
abbrev S8192 : Shape := ⟨1, ![8192]⟩
abbrev S1024x3 : Shape := ⟨2, ![1024, 3]⟩
abbrev S1024x1 : Shape := ⟨2, ![1024, 1]⟩
abbrev S3x1024 : Shape := ⟨2, ![3, 1024]⟩
abbrev S1x1024 : Shape := ⟨2, ![1, 1024]⟩
abbrev S1024x1024 : Shape := ⟨2, ![1024, 1024]⟩
abbrev S4x8192 : Shape := ⟨2, ![4, 8192]⟩
abbrev S_ : Shape := ⟨0, ![]⟩
abbrev S4 : Shape := ⟨1, ![4]⟩

abbrev nBuf : Space → Nat
  | .hbm => 11
  | .vmem => 10
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x1x8192, .f32⟩
  | .hbm, ⟨3, _⟩ => ⟨S4x1x8192, .f32⟩
  | .hbm, ⟨4, _⟩ => ⟨S4x8192, .f32⟩
  | .hbm, ⟨5, _⟩ => ⟨S4x8192, .f32⟩
  | .hbm, ⟨6, _⟩ => ⟨S_, .f32⟩
  | .hbm, ⟨7, _⟩ => ⟨S4, .f32⟩
  | .hbm, ⟨8, _⟩ => ⟨S_, .f32⟩
  | .hbm, ⟨9, _⟩ => ⟨S4, .f32⟩
  | .hbm, ⟨10, _⟩ => ⟨S4, .f32⟩
  | .local _ .vmem, ⟨0, _⟩ => ⟨S1x1024x3, .f32⟩
  | .local _ .vmem, ⟨1, _⟩ => ⟨S1x1024x3, .f32⟩
  | .local _ .vmem, ⟨2, _⟩ => ⟨S1x1024x3, .f32⟩
  | .local _ .vmem, ⟨3, _⟩ => ⟨S1x1024x3, .f32⟩
  | .local _ .vmem, ⟨4, _⟩ => ⟨S1x1x1024, .f32⟩
  | .local _ .vmem, ⟨5, _⟩ => ⟨S1x1x1024, .f32⟩
  | .local _ .vmem, ⟨6, _⟩ => ⟨S1x1x8192, .f32⟩
  | .local _ .vmem, ⟨7, _⟩ => ⟨S1x1x8192, .f32⟩
  | .local _ .vmem, ⟨8, _⟩ => ⟨S1024, .f32⟩
  | .local _ .vmem, ⟨9, _⟩ => ⟨S8192, .f32⟩
  | _, _ => ⟨S4x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 8], ![false, false, false]⟩

def k0_mult1 (i : grid0.Coords) : BitVec 32 :=
  let arg2 : BitVec 32 := BitVec.ofNat 32 (i 2).val
  let c1024_i32 : BitVec 32 := 1024#32
  let v53 : BitVec 32 := Scalar.muli arg2 c1024_i32
  v53
def k0_off1 (i : grid0.Coords) : Fin 1 → Nat :=
  let arg2 : BitVec 32 := BitVec.ofNat 32 (i 2).val
  let c1024_i32 : BitVec 32 := 1024#32
  let v53 : BitVec 32 := Scalar.muli arg2 c1024_i32
  let v54 : BitVec 32 := v53
  let v55 : Index := Scalar.indexCast v54
  ![v55.toNat]
def k0_cond3 (i : grid0.Coords) : BitVec 1 :=
  let arg2 : BitVec 32 := BitVec.ofNat 32 (i 2).val
  let c7_i32 : BitVec 32 := 7#32
  let v62 : BitVec 1 := Scalar.cmpi .eq arg2 c7_i32
  let v63 : BitVec 32 := Scalar.extui v62
  let c0_i32_16 : BitVec 32 := 0#32
  let v64 : BitVec 1 := Scalar.cmpi .ne v63 c0_i32_16
  v64

def k0_cond4 (i : grid0.Coords) : BitVec 1 :=
  let arg1 : BitVec 32 := BitVec.ofNat 32 (i 1).val
  let c7_i32_17 : BitVec 32 := 7#32
  let v65 : BitVec 1 := Scalar.cmpi .eq arg1 c7_i32_17
  let arg2 : BitVec 32 := BitVec.ofNat 32 (i 2).val
  let c7_i32_18 : BitVec 32 := 7#32
  let v66 : BitVec 1 := Scalar.cmpi .eq arg2 c7_i32_18
  let v67 : BitVec 1 := Scalar.andi v65 v66
  let v68 : BitVec 32 := Scalar.extui v67
  let c0_i32_19 : BitVec 32 := 0#32
  let v69 : BitVec 1 := Scalar.cmpi .ne v68 c0_i32_19
  v69

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

class Facts₀ : Prop where
  inb_S1024_S1024_0 : ∀ a, (![0] : Fin 1 → Nat) a + S1024.size a ≤ S1024.size a
  h_S1024 : 0 < S1024.numel
  shapeCasts_S1024_S1024 : S1024.ShapeCasts S1024
  inb_S8192_S8192_0 : ∀ a, (![0] : Fin 1 → Nat) a + S8192.size a ≤ S8192.size a
  h_S8192 : 0 < S8192.numel
  shapeCasts_S8192_S8192 : S8192.ShapeCasts S8192
  inb_S1x1024x3_S1x1024x3_0_0_0 : ∀ a, (![0, 0, 0] : Fin 3 → Nat) a + S1x1024x3.size a ≤ S1x1024x3.size a
  h_S1x1024x3 : 0 < S1x1024x3.numel
  shapeCasts_S1x1024x3_S1024x3 : S1x1024x3.ShapeCasts S1024x3
  reduces_S1024x3_S1024 : S1024x3.Reduces [1] S1024
  shapeCasts_S1024_S1024x1 : S1024.ShapeCasts S1024x1
  transposes_S1024x3_p1_0_S3x1024 : S1024x3.Transposes [1, 0] S3x1024
  slices_S1024x3_o0_0_S1024x1 : S1024x3.Slices ![0, 0] S1024x1
  slices_S3x1024_o0_0_S1x1024 : S3x1024.Slices ![0, 0] S1x1024
  broadcasts_S1024x1_S1024x1024 : S1024x1.Broadcasts S1024x1024
  broadcasts_S1x1024_S1024x1024 : S1x1024.Broadcasts S1024x1024
  slices_S1024x3_o0_1_S1024x1 : S1024x3.Slices ![0, 1] S1024x1
  slices_S3x1024_o1_0_S1x1024 : S3x1024.Slices ![1, 0] S1x1024
  slices_S1024x3_o0_2_S1024x1 : S1024x3.Slices ![0, 2] S1024x1
  slices_S3x1024_o2_0_S1x1024 : S3x1024.Slices ![2, 0] S1x1024
  transposes_S1024x1_p1_0_S1x1024 : S1024x1.Transposes [1, 0] S1x1024
  reduces_S1024x1024_S1024 : S1024x1024.Reduces [1] S1024
  reduces_S1024x1024_S1024_2 : S1024x1024.Reduces [0] S1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1024 : S1x1x1024.ShapeCasts S1024
  shapeCasts_S1024_S1x1x1024 : S1024.ShapeCasts S1x1x1024
  inb_S1x1x8192_S1x1x8192_0_0_0 : ∀ a, (![0, 0, 0] : Fin 3 → Nat) a + S1x1x8192.size a ≤ S1x1x8192.size a
  h_S1x1x8192 : 0 < S1x1x8192.numel
  shapeCasts_S1x1x8192_S8192 : S1x1x8192.ShapeCasts S8192
  shapeCasts_S8192_S1x1x8192 : S8192.ShapeCasts S1x1x8192
  shapeCasts_S4x1x8192_S4x8192 : S4x1x8192.ShapeCasts S4x8192
  reducesTo_S4x8192_S4_d1 : S4x8192.ReducesTo [1] S4
  h_S_ : 0 < S_.numel
  hrank0 : 0 < grid0.rank
  k0_mult1_dvd : ∀ i : grid0.Coords, 1024 ∣ (k0_mult1 i).toNat
  k0_off1_inb : ∀ i : grid0.Coords, ∀ a, (k0_off1 i) a + S1024.size a ≤ S8192.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x3.size a ≤ S4x8192x3.size a
  hwx0_0 : ∀ i : grid0.Coords, EltTy.bits .f32 = 32 ∨ (Rect.block (s := S4x8192x3) S1x1024x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x3.size a ≤ S4x8192x3.size a
  hwx0_1 : ∀ i : grid0.Coords, EltTy.bits .f32 = 32 ∨ (Rect.block (s := S4x8192x3) S1x1024x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024.size a ≤ S4x1x8192.size a
  hwx0_2 : ∀ i : grid0.Coords, EltTy.bits .f32 = 32 ∨ (Rect.block (s := S4x1x8192) S1x1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x8192.size a ≤ S4x1x8192.size a
  hwx0_3 : ∀ i : grid0.Coords, EltTy.bits .f32 = 32 ∨ (Rect.block (s := S4x1x8192) S1x1x8192.size (cc0_transform_3 i) (hinb0_3 i)).WholeWords (EltTy.packing .f32)

variable [Facts₀]

abbrev win0_0 : Pipeline.Window sig grid0 :=
  Pipeline.Window.ofSpec (Memref.whole main_arg0) S1x1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1x8192.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond3 i == 1#1) | 3 => fun i => !(k0_cond4 i == 1#1) | ⟨_ + 4, h⟩ => absurd h (Nat.not_lt.2 (Nat.le_add_left _ _))

class Facts : Prop extends Facts₀ where

variable [Facts]
-- ==== ReferenceIdeal.lean ====
abbrev S4x8192x3 : Shape := ⟨3, ![4, 8192, 3]⟩
abbrev S_ : Shape := ⟨0, ![]⟩
abbrev S4x8192 : Shape := ⟨2, ![4, 8192]⟩
abbrev S4x8192x8192 : Shape := ⟨3, ![4, 8192, 8192]⟩
abbrev S4x8192x1 : Shape := ⟨3, ![4, 8192, 1]⟩
abbrev S4x1x8192 : Shape := ⟨3, ![4, 1, 8192]⟩
abbrev S4 : Shape := ⟨1, ![4]⟩

abbrev nBuf : Space → Nat
  | .hbm => 31
  | .vmem => 0
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x8192x3, .f32⟩
  | .hbm, ⟨3, _⟩ => ⟨S_, .f32⟩
  | .hbm, ⟨4, _⟩ => ⟨S4x8192, .f32⟩
  | .hbm, ⟨5, _⟩ => ⟨S4x8192x3, .f32⟩
  | .hbm, ⟨6, _⟩ => ⟨S_, .f32⟩
  | .hbm, ⟨7, _⟩ => ⟨S4x8192, .f32⟩
  | .hbm, ⟨8, _⟩ => ⟨S4x8192x8192, .f32⟩
  | .hbm, ⟨9, _⟩ => ⟨S4x8192x1, .f32⟩
  | .hbm, ⟨10, _⟩ => ⟨S4x1x8192, .f32⟩
  | .hbm, ⟨11, _⟩ => ⟨S4x8192x8192, .f32⟩
  | .hbm, ⟨12, _⟩ => ⟨S4x8192x8192, .f32⟩
  | .hbm, ⟨13, _⟩ => ⟨S4x8192x8192, .f32⟩
  | .hbm, ⟨14, _⟩ => ⟨S_, .f32⟩
  | .hbm, ⟨15, _⟩ => ⟨S4x8192x8192, .f32⟩
  | .hbm, ⟨16, _⟩ => ⟨S4x8192x8192, .f32⟩
  | .hbm, ⟨17, _⟩ => ⟨S4x8192x8192, .f32⟩
  | .hbm, ⟨18, _⟩ => ⟨S_, .f32⟩
  | .hbm, ⟨19, _⟩ => ⟨S4x8192x8192, .f32⟩
  | .hbm, ⟨20, _⟩ => ⟨S4x8192x8192, .f32⟩
  | .hbm, ⟨21, _⟩ => ⟨S4x8192x8192, .f32⟩
  | .hbm, ⟨22, _⟩ => ⟨S_, .f32⟩
  | .hbm, ⟨23, _⟩ => ⟨S4x8192, .f32⟩
  | .hbm, ⟨24, _⟩ => ⟨S_, .f32⟩
  | .hbm, ⟨25, _⟩ => ⟨S4, .f32⟩
  | .hbm, ⟨26, _⟩ => ⟨S_, .f32⟩
  | .hbm, ⟨27, _⟩ => ⟨S4x8192, .f32⟩
  | .hbm, ⟨28, _⟩ => ⟨S_, .f32⟩
  | .hbm, ⟨29, _⟩ => ⟨S4, .f32⟩
  | .hbm, ⟨30, _⟩ => ⟨S4, .f32⟩
  | _, _ => ⟨S4x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_cst_6 : Ref sig .tc := ⟨.hbm, 28, rfl⟩
abbrev main_v19 : Ref sig .tc := ⟨.hbm, 29, rfl⟩
abbrev main_v20 : Ref sig .tc := ⟨.hbm, 30, rfl⟩

abbrev nD : Nat := 1
abbrev τ : Topo := Topo.v7x

variable {F : FTy → Type} [FloatOps F]

class Facts₀ : Prop where
  reducesTo_S4x8192x3_S4x8192_d2 : S4x8192x3.ReducesTo [2] S4x8192
  h_S_ : 0 < S_.numel
  bcast_S4x8192_S4x8192x1_0_1 : S4x8192.BroadcastsInDim S4x8192x1 (![0, 1] : Fin 2 → Fin S4x8192x1.rank)
  bcast_S4x8192_S4x1x8192_0_2 : S4x8192.BroadcastsInDim S4x1x8192 (![0, 2] : Fin 2 → Fin S4x1x8192.rank)
  bcast_S4x8192x1_S4x8192x8192_0_1_2 : S4x8192x1.BroadcastsInDim S4x8192x8192 (![0, 1, 2] : Fin 3 → Fin S4x8192x8192.rank)
  bcast_S4x1x8192_S4x8192x8192_0_1_2 : S4x1x8192.BroadcastsInDim S4x8192x8192 (![0, 1, 2] : Fin 3 → Fin S4x8192x8192.rank)
  bcast_S_S4x8192x8192 : S_.BroadcastsInDim S4x8192x8192 (![] : Fin 0 → Fin S4x8192x8192.rank)
  reducesTo_S4x8192x8192_S4x8192_d1 : S4x8192x8192.ReducesTo [1] S4x8192
  reducesTo_S4x8192_S4_d1 : S4x8192.ReducesTo [1] S4
  reducesTo_S4x8192x8192_S4x8192_d2 : S4x8192x8192.ReducesTo [2] S4x8192
  dot_S4x8192x3_S4x8192x3_S4x8192x8192_2_2_1_1_0_0_wf : DotDims.WF S4x8192x3 S4x8192x3 S4x8192x8192 [2] [2] [1] [1] [0] [0]

variable [Facts₀]

def dot_S4x8192x3_S4x8192x3_S4x8192x8192_2_2_1_1_0_0 : DotDims S4x8192x3 S4x8192x3 S4x8192x8192 where
  lhsContracting := [2]
  rhsContracting := [2]
  lhsNonContracting := [1]
  rhsNonContracting := [1]
  lhsBatch := [0]
  rhsBatch := [0]
  wf := dot_S4x8192x3_S4x8192x3_S4x8192x8192_2_2_1_1_0_0_wf

class Facts : Prop extends Facts₀ where

variable [Facts]
-- ==== Proof.LibBlockInf.lean ====
/-
  An infimum over a finite range gathered block by block, on the extended reals.

  `infBelow f K` is the infimum of `f` over the indices below `K`: the top element at `K = 0`, the whole infimum once
  `K` reaches the number of indices, and the minimum with the infimum over the next `L` indices moves the bound from `K`
  to `K + L`. A running minimum kept across the tiles of a reduction axis is therefore the minimum over the axis.
  A fold of `min` over a finite index type is the minimum of its starting value and the infimum of the family. Only
  the lattice structure is used.
-/
import Idealize.ShloMosaic.PureOps.Ideal.Laws

noncomputable section

namespace Cert.Lib.BlockInf

/-- The infimum of `f` over the indices below `K`. -/
def infBelow {N : ℕ} (f : Fin N → EReal) (K : ℕ) : EReal := ⨅ (k : Fin N) (_ : k.val < K), f k

theorem infBelow_zero {N : ℕ} (f : Fin N → EReal) : infBelow f 0 = ⊤ := by
  unfold infBelow
  simp

theorem infBelow_of_le {N : ℕ} (f : Fin N → EReal) {K : ℕ} (hK : N ≤ K) : infBelow f K = ⨅ k, f k := by
  unfold infBelow
  refine iInf_congr fun k => ?_
  have : k.val < K := lt_of_lt_of_le k.isLt hK
  simp [this]

/-- Gathering the next `L` indices: the bound moves from `K` to `K + L`. -/
theorem infBelow_add {N : ℕ} (f : Fin N → EReal) (K L : ℕ) (hKL : K + L ≤ N) :
    min (infBelow f K) (⨅ c : Fin L, f ⟨K + c.val, by have := c.isLt; omega⟩) = infBelow f (K + L) := by
  unfold infBelow
  apply le_antisymm
  · refine le_iInf fun k => le_iInf fun hk => ?_
    by_cases h : k.val < K
    · exact (min_le_left _ _).trans ((iInf_le _ k).trans (iInf_le _ h))
    · have hc : k.val - K < L := by omega
      refine (min_le_right _ _).trans ((iInf_le _ (⟨k.val - K, hc⟩ : Fin L)).trans (le_of_eq ?_))
      congr 1
      apply Fin.ext
      show K + (k.val - K) = k.val
      omega
  · refine le_min (le_iInf fun k => le_iInf fun hk => ?_) (le_iInf fun c => ?_)
    · exact (iInf_le _ k).trans (iInf_le _ (by omega))
    · exact (iInf_le _ _).trans (iInf_le _ (by show K + c.val < K + L; have := c.isLt; omega))

/-- A fold of `min` over a finite index type from `a` is the minimum of `a` and the infimum of the family. -/
theorem fold_min_eq {ι : Type} [Fintype ι] (a : EReal) (f : ι → EReal) :
    (Finset.univ : Finset ι).fold min a f = min a (⨅ k, f k) := by
  classical
  have key : ∀ s : Finset ι, s.fold min a f = min a (s.inf f) := by
    intro s
    induction s using Finset.induction_on with
    | empty => simp
    | insert i s hi ih =>
      rw [Finset.fold_insert hi, ih, Finset.inf_insert]
      show min (f i) (min a (s.inf f)) = min a (min (f i) (s.inf f))
      exact min_left_comm _ _ _
  rw [key, Finset.inf_univ_eq_iInf]

end Cert.Lib.BlockInf

end
-- ==== Proof.LibSlab.lean ====
/-
  A vector with one slab of consecutive entries loaded or replaced.

  `slab off h v` is the `L` entries of a length-`N` vector from `off` on, `upd off h v w` the vector with those entries
  replaced by `w`. A load of the unit-stride rectangle at `off` reads the slab, and one store through that rectangle into a
  buffer that held `X` leaves `upd` of `X`: inside the slab the store wins, outside it the old contents stay.
-/
import Idealize.ShloMosaic.Lib.ValueIdx
import Idealize.ShloMosaic.Lib.Pipeline.Value

noncomputable section

namespace Cert.Lib.Slab

open Idealize.ShloMosaic Idealize.ShloMosaic.ValueIdx

/-- Entries `off, …, off + L - 1` of a length-`N` vector. -/
def slab {α : Type} {N L : ℕ} (off : ℕ) (h : off + L ≤ N) (v : (⟨1, ![N]⟩ : Shape).Idx → α) : (⟨1, ![L]⟩ : Shape).Idx → α :=
  fun r => v (ix1 ⟨off + (r 0).val, by have : (r 0).val < L := (r 0).isLt; omega⟩)

/-- The vector `v` with its entries `off, …, off + L - 1` replaced by `w`. -/
def upd {α : Type} {N L : ℕ} (off : ℕ) (h : off + L ≤ N) (v : (⟨1, ![N]⟩ : Shape).Idx → α) (w : (⟨1, ![L]⟩ : Shape).Idx → α) :
    (⟨1, ![N]⟩ : Shape).Idx → α :=
  fun q => if hq : off ≤ (q 0).val ∧ (q 0).val < off + L then w (ix1 ⟨(q 0).val - off, by omega⟩) else v q

theorem slab_apply {α : Type} {N L : ℕ} (off : ℕ) (h : off + L ≤ N) (v : (⟨1, ![N]⟩ : Shape).Idx → α) (r : Fin L) :
    slab off h v (ix1 r) = v (ix1 ⟨off + r.val, by have := r.isLt; omega⟩) := rfl

theorem upd_apply_in {α : Type} {N L : ℕ} (off : ℕ) (h : off + L ≤ N) (v : (⟨1, ![N]⟩ : Shape).Idx → α) (w : (⟨1, ![L]⟩ : Shape).Idx → α)
    (q : Fin N) (hq : off ≤ q.val ∧ q.val < off + L) : upd off h v w (ix1 q) = w (ix1 ⟨q.val - off, by omega⟩) :=
  dif_pos hq

theorem upd_apply_out {α : Type} {N L : ℕ} (off : ℕ) (h : off + L ≤ N) (v : (⟨1, ![N]⟩ : Shape).Idx → α) (w : (⟨1, ![L]⟩ : Shape).Idx → α)
    (q : Fin N) (hq : ¬(off ≤ q.val ∧ q.val < off + L)) : upd off h v w (ix1 q) = v (ix1 q) :=
  dif_neg hq

/-! ## Loads and stores of a slab -/

/-- A one-axis offset written as a literal is the zero offset. -/
theorem hz1 : (![0] : Fin 1 → Nat) = fun _ => 0 := funext fun a => by fin_cases a; rfl
/-- A three-axis offset written as a literal is the zero offset. -/
theorem hz3 : (![0, 0, 0] : Fin 3 → Nat) = fun _ => 0 := funext fun a => by fin_cases a <;> rfl

/-- A load of `L` consecutive entries from `off` of a length-`N` vector is its slab there. -/
theorem ld_slab {Val : EltTy → Type} {e : EltTy} {N L : ℕ} (X : (⟨1, ![N]⟩ : Shape).Idx → Val e) (off : Fin 1 → ℕ)
    (inb : ∀ a, off a + (![L] : Fin 1 → ℕ) a ≤ (⟨1, ![N]⟩ : Shape).size a) (h : off 0 + L ≤ N) :
    View.ld X (Rect.unit (s := (⟨1, ![N]⟩ : Shape)) off ![L] inb) = slab (off 0) h X := by
  refine funext fun (r : (⟨1, ![L]⟩ : Shape).Idx) => ?_
  obtain ⟨r0, rfl⟩ : ∃ r0 : Fin L, r = ix1 r0 := ⟨r 0, ValueIdx.eq_ix1 r⟩
  rw [slab_apply]
  show X ((Rect.unit (s := (⟨1, ![N]⟩ : Shape)) off ![L] inb).idx (ix1 r0)) = _
  congr 1
  funext a
  match a with
  | ⟨0, _⟩ =>
    apply Fin.ext
    show off 0 + 1 * r0.val = off 0 + r0.val
    rw [Nat.one_mul]

/-- One store of `L` consecutive entries at `off` into a length-`N` buffer that held `X` leaves `X` with that slab
    replaced by the payload: inside the slab the store wins, outside it the old contents stay. -/
theorem read_writes_slab {sig : RefSig} {κ : Kind} {sp : Space} {Val : EltTy → Type} {e : EltTy} {N L : ℕ}
    (v : View sig κ sp (⟨1, ![N]⟩ : Shape) e) (f : v.ty.Contents Val) (X : (⟨1, ![N]⟩ : Shape).Idx → Val e)
    (hf : v.read Val f = X) (off : Fin 1 → ℕ)
    (inb : ∀ a, off a + (![L] : Fin 1 → ℕ) a ≤ (⟨1, ![N]⟩ : Shape).size a) (h : off 0 + L ≤ N)
    (w : (⟨1, ![L]⟩ : Shape).Idx → Val e) :
    v.read Val (v.writes Val f [(⟨Rect.unit (s := (⟨1, ![N]⟩ : Shape)) off ![L] inb, w⟩ : View.Piece Val (⟨1, ![N]⟩ : Shape) e)])
      = upd (off 0) h X w := by
  funext q
  obtain ⟨q0, rfl⟩ : ∃ q0 : Fin N, q = ix1 q0 := ⟨q 0, ValueIdx.eq_ix1 q⟩
  by_cases hq : off 0 ≤ q0.val ∧ q0.val < off 0 + L
  · rw [upd_apply_in _ _ _ _ q0 hq]
    have hy : (Rect.unit (s := (⟨1, ![N]⟩ : Shape)) off ![L] inb).emb (ix1 ⟨q0.val - off 0, by omega⟩) = ix1 q0 :=
      funext fun a => match a with
        | ⟨0, _⟩ => Fin.ext (by
            show off 0 + 1 * (q0.val - off 0) = q0.val
            omega)
    rw [← hy]
    exact View.read_writes_cons_emb v f (Rect.unit (s := (⟨1, ![N]⟩ : Shape)) off ![L] inb) w [] _
  · rw [upd_apply_out _ _ _ _ q0 hq]
    have hn : ix1 q0 ∉ Finset.univ.map (Rect.unit (s := (⟨1, ![N]⟩ : Shape)) off ![L] inb).emb := by
      rw [Rect.map_emb_univ, Rect.mem_set_unit]
      intro hall
      have h0 : off 0 ≤ q0.val ∧ q0.val < off 0 + L := hall 0
      exact hq h0
    rw [View.writes_cons, View.read_slice_write_of_not_mem _ _ _ _ hn, View.writes_nil, hf]

end Cert.Lib.Slab

end
-- ==== Proof.Spec.lean ====
/-
  The symmetric nearest-neighbour distance sum of two batches of point clouds, as one function of the two input arrays.

  For clouds x, y : [4, 8192, 3] the distance of point n of x from point m of y (same batch b) is
    dist = sqrt (max ((|x n|^2 + |y m|^2) - 2 * <x n, y m>) 0),
  the squared norms and the inner product finite sums over the three coordinates. Each point of x is given the
  infimum of its distances to the points of y (`rowMin`), each point of y the infimum of its distances to the points
  of x (`colMin`); both programs then add up each family over its 8192 points and add the two sums.

  An infimum over all 8192 points can be gathered block by block: `infBelow f K` is the infimum of `f` over the
  indices below `K`, it is the top element at `K = 0`, the whole infimum from `K = 8192` on, and taking the minimum
  with the infimum over the next `L` indices moves the bound from `K` to `K + L` (`infBelow_add`). Only the lattice
  structure of the extended reals is used: no finiteness of the inputs is needed for any of it.
-/
import Idealize.ShloMosaic.Lib.ValueIdx
import Idealize.ShloMosaic.PureOps.Ideal.Laws
import proofs.«177700_j70927089926224_1_alg».proof.Proof.LibBlockInf
import proofs.«177700_j70927089926224_1_alg».proof.Proof.LibSlab

noncomputable section

namespace Cert.Chamfer

open Idealize.ShloMosaic Idealize.ShloMosaic.ValueIdx

export Cert.Lib.BlockInf (infBelow infBelow_zero infBelow_of_le infBelow_add fold_min_eq)
export Cert.Lib.Slab (slab upd slab_apply upd_apply_in upd_apply_out)

/-- The shape of a batch of clouds: 4 clouds of 8192 points with 3 coordinates. -/
abbrev SPts : Shape := ⟨3, ![4, 8192, 3]⟩
/-- One value per point of each cloud. -/
abbrev SMin : Shape := ⟨2, ![4, 8192]⟩

/-- Squared Euclidean norm of a point. -/
def sqn (u : Fin 3 → EReal) : EReal := ∑ d, u d * u d
/-- Inner product of two points. -/
def dot (u v : Fin 3 → EReal) : EReal := ∑ d, u d * v d

/-- The distance of two points, through the expansion |u|^2 + |v|^2 - 2<u,v> clipped at 0 before the root. -/
def dist (u v : Fin 3 → EReal) : EReal :=
  Ideal.sqrt (max ((sqn u + sqn v) - Ideal.ofBits .f32 0x40000000#32 * dot u v) (Ideal.ofBits .f32 0x00000000#32))

/-- Point `n` of cloud `b`. -/
def pt (x : SPts.Idx → EReal) (b : Fin 4) (n : Fin 8192) : Fin 3 → EReal := fun d => x (ix3 b n d)

/-- Distance of point `n` of x's cloud `b` from point `m` of y's cloud `b`. -/
def P (x y : SPts.Idx → EReal) (b : Fin 4) (n m : Fin 8192) : EReal := dist (pt x b n) (pt y b m)

/-- Distance from point `n` of x to the nearest point of y. -/
def rowMin (x y : SPts.Idx → EReal) (b : Fin 4) (n : Fin 8192) : EReal := ⨅ m : Fin 8192, P x y b n m
/-- Distance from point `m` of y to the nearest point of x. -/
def colMin (x y : SPts.Idx → EReal) (b : Fin 4) (m : Fin 8192) : EReal := ⨅ n : Fin 8192, P x y b n m

/-- The two families as [4, 8192] arrays. -/
def rowMinArr (x y : SPts.Idx → EReal) : SMin.Idx → EReal := fun i => rowMin x y (i 0) (i 1)
def colMinArr (x y : SPts.Idx → EReal) : SMin.Idx → EReal := fun i => colMin x y (i 0) (i 1)

/-- Row `r` of the `i`-th block of 1024 among 8192. -/
def rowIx (i : Fin 8) (r : Fin 1024) : Fin 8192 := ⟨i.val * 1024 + r.val, by have := i.isLt; have := r.isLt; omega⟩

/-! ## The sums both programs end with -/

/-- The sum over each cloud's points of the first family plus that of the second: the last three host operations of
    both programs (two sums along axis 1 from the zero, and their sum), as one function of the two families. -/
def lossOf (hr : SMin.ReducesTo [1] (⟨1, ![4]⟩ : Shape)) (h0 : 0 < (⟨0, ![]⟩ : Shape).numel) (a b : SMin.Idx → EReal) :
    (⟨1, ![4]⟩ : Shape).Idx → EReal :=
  addf (F := Ideal) (φ := .f32) (Host.reduceAdd (F := Ideal) (φ := .f32) a (constant (F := Ideal) ⟨0, ![]⟩ .f32 0x00000000#32) hr h0)
    (Host.reduceAdd (F := Ideal) (φ := .f32) b (constant (F := Ideal) ⟨0, ![]⟩ .f32 0x00000000#32) hr h0)

/-- The accumulators start from the largest float, which is the top element of the extended reals. -/
theorem ofBits_inf : Ideal.ofBits .f32 0x7F800000#32 = (⊤ : EReal) := by
  simp [Ideal.ofBits, Ideal.ieee]

end Cert.Chamfer

end
-- ==== Proof.Blocks.lean ====
/-
  The grid point as (cloud, row block, column block), and the two input blocks at a point read at coordinates:
  point t = 64 b + 8 i + j works on rows 1024 i … 1024 i + 1023 of x's cloud b and rows 1024 j … 1024 j + 1023 of
  y's cloud b, and updates the slab of the second accumulator that starts at 1024 j.
-/
import proofs.«177700_j70927089926224_1_alg».proof.Proof.Gen.KernelIdeal.Frame
import proofs.«177700_j70927089926224_1_alg».proof.Proof.Spec
import Idealize.ShloMosaic.Lib.Pipeline.Value

noncomputable section

namespace Cert.Chamfer.Blk

open Idealize.ShloMosaic Idealize.ShloMosaic.TcCoe Idealize.SL.Sem Idealize.ShloMosaic.ValueIdx Cert.KernelIdeal Cert.KernelIdeal.Gen Cert.Chamfer
open Idealize.ShloMosaic.Pipeline (Dat)

variable {F : FTy → Type} [FloatOps F]
variable (m : (ℓ : Loc nD τ sig) → Buf (Elt F) ℓ)

theorem N_lt (t : Fin cfg0.N) : t.val < 256 := lt_of_lt_of_eq t.isLt (show cfg0.N = 256 from N_0)

/-- The cloud, the row block and the column block of grid point `t`. -/
def bOf (t : Fin cfg0.N) : Fin 4 := ⟨t.val / 64, by have := N_lt t; omega⟩
def iOf (t : Fin cfg0.N) : Fin 8 := ⟨t.val / 8 % 8, by omega⟩
def jOf (t : Fin cfg0.N) : Fin 8 := ⟨t.val % 8, by omega⟩

/-- The two input blocks at a point, at their literal type. -/
abbrev xblk (c : Dev nD) (t : Fin cfg0.N) : Vec F S1x1024x3 .f32 := iblk m c 0 t
abbrev yblk (c : Dev nD) (t : Fin cfg0.N) : Vec F S1x1024x3 .f32 := iblk m c 1 t

/-- The two argument arrays. -/
abbrev xarr (c : Dev nD) : Vec F S4x8192x3 .f32 := m ((c : Thread nD τ).loc main_arg0)
abbrev yarr (c : Dev nD) : Vec F S4x8192x3 .f32 := m ((c : Thread nD τ).loc main_arg1)

/-- The block index of window 0 at point t is (t / 64, t / 8 % 8, 0). -/
theorem win0_0_index : ∀ t : Fin grid0.N, win0_0.index t 0 = t.val / 64 ∧ win0_0.index t 1 = t.val / 8 % 8 ∧ win0_0.index t 2 = 0 := by
  decide +kernel

/-- The block index of window 1 at point t is (t / 64, t % 8, 0). -/
theorem win0_1_index : ∀ t : Fin grid0.N, win0_1.index t 0 = t.val / 64 ∧ win0_1.index t 1 = t.val % 8 ∧ win0_1.index t 2 = 0 := by
  decide +kernel

/-- The last grid coordinate of point t is t % 8. -/
theorem coords_2 : ∀ t : Fin grid0.N, (grid0.coords t 2).val = t.val % 8 := by
  decide +kernel

/-- Row r of x's block at point t is row 1024 i + r of cloud b: a block's coordinate is its index times the block's
    extent plus the coordinate inside the block. -/
theorem xblk_apply (c : Dev nD) (t : Fin cfg0.N) (r : Fin 1024) (d : Fin 3) :
    xblk m c t (ix3 (0 : Fin 1) r d) = xarr m c (ix3 (bOf t) (rowIx (iOf t) r) d) := by
  have hi := win0_0_index t
  unfold xblk iblk
  rw [View.read_apply]
  show V m c main_arg0 _ = m ((c : Thread nD τ).loc main_arg0) _
  rw [V_main_arg0]
  congr 1
  funext a
  apply Fin.ext
  match a with
  | ⟨0, _⟩ => show win0_0.index t 0 * 1 + 1 * 0 = t.val / 64; rw [hi.1]; omega
  | ⟨1, _⟩ => show win0_0.index t 1 * 1024 + 1 * r.val = t.val / 8 % 8 * 1024 + r.val; rw [hi.2.1, Nat.one_mul]
  | ⟨2, _⟩ => show win0_0.index t 2 * 3 + 1 * d.val = d.val; rw [hi.2.2]; omega

/-- Row r of y's block at point t is row 1024 j + r of cloud b. -/
theorem yblk_apply (c : Dev nD) (t : Fin cfg0.N) (r : Fin 1024) (d : Fin 3) :
    yblk m c t (ix3 (0 : Fin 1) r d) = yarr m c (ix3 (bOf t) (rowIx (jOf t) r) d) := by
  have hi := win0_1_index t
  unfold yblk iblk
  rw [View.read_apply]
  show V m c main_arg1 _ = m ((c : Thread nD τ).loc main_arg1) _
  rw [V_main_arg1]
  congr 1
  funext a
  apply Fin.ext
  match a with
  | ⟨0, _⟩ => show win0_1.index t 0 * 1 + 1 * 0 = t.val / 64; rw [hi.1]; omega
  | ⟨1, _⟩ => show win0_1.index t 1 * 1024 + 1 * r.val = t.val % 8 * 1024 + r.val; rw [hi.2.1, Nat.one_mul]
  | ⟨2, _⟩ => show win0_1.index t 2 * 3 + 1 * d.val = d.val; rw [hi.2.2]; omega

/-- The slab the body updates at point `t` starts at 1024 j. -/
theorem off_eq (t : Fin cfg0.N) : k0_off1 (grid0.coords t) 0 = (jOf t).val * 1024 := by
  rw [k0_off1_eq]
  show 1024 * (grid0.coords t 2).val = t.val % 8 * 1024
  rw [coords_2 t, Nat.mul_comm]

end Cert.Chamfer.Blk

end
-- ==== Proof.LibColumn.lean ====
/-
  Column-shaped values read at an index given by coordinates, and a lane sum read as a finite sum.

  A row-wise reduction that keeps its axis (`sum(…, axis=1, keepdims=True)`) leaves an `[a, 1]` column. Three re-layings
  of such a column occur whenever it meets a full `[a, b]` tile: the cast of the `[a]` vector of sums to the column, the
  column broadcast along the rows of the tile, and (for the other operand's sums) the column transposed to a `[1, b]` row,
  which the library's `transpose_ix2_apply` and `broadcastTo_1b_ab_apply` already read. Each lemma states what the
  re-laid value holds at `(p, c)` in terms of the original vector, for indices built by `ix1` / `ix2`, so that it applies
  to a printed operation by unification. Generic in the extents and in the element type.
-/
import Idealize.ShloMosaic.Lib.ValueLayout
import Idealize.ShloMosaic.PureOps.Ideal.Laws

namespace Cert.Lib.Column

open Idealize.ShloMosaic Idealize.ShloMosaic.ValueIdx

variable {α : Type}

/-- An `[a]` vector cast to the column `[a, 1]` reads, at `(i, u)`, the vector's entry `i`, whatever the unit
    coordinate `u`: both positions are `i` in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`: every column of the
    result is the operand. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum along the rows of an `[a, d]` block (a float `multi_reduction <add>` over axis 1 from the neutral
    accumulator), read on the extended reals at row `i`, is the finite sum of the row's `d` entries. -/
theorem rowSum_apply {φ : FTy} {a d : ℕ} (src : FVec Ideal ⟨2, ![a, d]⟩ φ) (acc : BitVec φ.bits)
    (h : (⟨2, ![a, d]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin d, src (ix2 i k) :=
  (Ideal.multiReduction_add_single src acc h hφ hacc (ix1 i)).trans
    (Finset.sum_congr rfl fun k _ => congrArg src (funext fun c => Fin.ext (by
      match c with
      | ⟨0, _⟩ => rfl
      | ⟨1, _⟩ => rfl)))

end Cert.Lib.Column
-- ==== Proof.Payload.lean ====
/-
  The body's arithmetic read at an index, on the extended reals.
-/
import proofs.«177700_j70927089926224_1_alg».proof.Proof.Gen.KernelIdeal.Skeleton
import proofs.«177700_j70927089926224_1_alg».proof.Proof.Spec
import proofs.«177700_j70927089926224_1_alg».proof.Proof.LibColumn
import Idealize.ShloMosaic.Lib.ValueLayout
import Idealize.ShloMosaic.Lib.Pipeline.Value
import Idealize.ShloMosaic.PureOps.Ideal.Laws

noncomputable section

namespace Cert.Chamfer.Pay

open Idealize.ShloMosaic Idealize.ShloMosaic.ValueIdx Cert.KernelIdeal Cert.KernelIdeal.Gen Cert.Chamfer

/-- Row `r` of a [1, 1024, 3] block, as a point. -/
def bpt (u : Vec Ideal S1x1024x3 .f32) (r : Fin 1024) : Fin 3 → EReal := fun d => u (ix3 (0 : Fin 1) r d)

/-- The block with its unit axis dropped reads, at (r, d), coordinate d of point r. -/
theorem pay8_apply (u : Vec Ideal S1x1024x3 .f32) (r : Fin 1024) (d : Fin 3) :
    k0_pay8 (F := Ideal) u (ix2 r d) = bpt u r d := by
  unfold k0_pay8
  exact shapeCast_1ab_ab_apply u _ r d

theorem pay9_apply (u : Vec Ideal S1x1024x3 .f32) (r : Fin 1024) (d : Fin 3) :
    k0_pay9 (F := Ideal) u (ix2 r d) = bpt u r d := by
  unfold k0_pay9
  exact shapeCast_1ab_ab_apply u _ r d

/-- Column `d` of the first block, spread along the rows of the tile: at (r, c) it is coordinate d of point r. -/
theorem colSpread_apply (u : Vec Ideal S1x1024x3 .f32) (o : Nat) (d : Fin 3) (hd : d.val = o)
    (hs : S1024x3.Slices ![0, o] S1024x1) (hb : S1024x1.Broadcasts S1024x1024) (r c : Fin 1024) :
    broadcastTo S1024x1024 (extractStridedSlice S1024x1 ![0, o] (k0_pay8 (F := Ideal) u) hs) hb (ix2 r c) = bpt u r d :=
  (Cert.Lib.Column.broadcastTo_a1_ab_apply _ hb r c).trans
    ((slice2_axis1_apply o _ hs r (0 : Fin 1) d (by rw [hd]; rfl)).trans (pay8_apply u r d))

/-- Row `d` of the second block transposed, spread down the columns of the tile: at (r, c) it is coordinate d of
    point c. -/
theorem rowSpread_apply (u : Vec Ideal S1x1024x3 .f32) (o : Nat) (d : Fin 3) (hd : d.val = o)
    (ht : S1024x3.Transposes [1, 0] S3x1024) (hs : S3x1024.Slices ![o, 0] S1x1024) (hb : S1x1024.Broadcasts S1024x1024)
    (r c : Fin 1024) :
    broadcastTo S1024x1024 (extractStridedSlice S1x1024 ![o, 0] (transpose S3x1024 [1, 0] (k0_pay9 (F := Ideal) u) ht) hs) hb (ix2 r c)
      = bpt u c d :=
  (broadcastTo_1b_ab_apply _ hb r c).trans
    ((slice2_axis0_apply o _ hs (0 : Fin 1) c d (by rw [hd]; rfl)).trans
      ((transpose_ix2_apply _ ht d c).trans (pay9_apply u c d)))

/-- The product tile: at (r, c) the inner product of point r of the first block and point c of the second. -/
theorem pay10_apply (u0 u1 : Vec Ideal S1x1024x3 .f32) (r c : Fin 1024) :
    k0_pay10 (F := Ideal) u0 u1 (ix2 r c) = dot (bpt u0 r) (bpt u1 c) := by
  unfold k0_pay10 dot
  rw [Fin.sum_univ_three]
  simp only [addf_apply, mulf_apply]
  rw [colSpread_apply u0 0 0 rfl, colSpread_apply u0 1 1 rfl, colSpread_apply u0 2 2 rfl,
    rowSpread_apply u1 0 0 rfl, rowSpread_apply u1 1 1 rfl, rowSpread_apply u1 2 2 rfl]

/-- The row sums of the squares of a [1024, 3] array whose row r is the point p r: the squared norms. -/
theorem sqSum_apply (w : FVec Ideal S1024x3 .f32) (p : Fin 1024 → Fin 3 → EReal) (hw : ∀ r d, w (ix2 r d) = p r d)
    (r : Fin 1024) :
    multiReduction (F := Ideal) .add [1] S1024 (mulf w w) 0x00000000#32 reduces_S1024x3_S1024 (.inl rfl) rfl (ix1 r) = sqn (p r) :=
  (Cert.Lib.Column.rowSum_apply _ _ _ _ _ r).trans
    (Finset.sum_congr rfl fun k _ => by rw [mulf_apply, hw])

/-- The tile of squared norms: at (r, c), that of point r of the first block plus that of point c of the second. -/
theorem pay11_apply (u0 u1 : Vec Ideal S1x1024x3 .f32) (r c : Fin 1024) :
    k0_pay11 (F := Ideal) u0 u1 (ix2 r c) = sqn (bpt u0 r) + sqn (bpt u1 c) := by
  unfold k0_pay11
  rw [addf_apply]
  refine congrArg₂ (· + ·) ?_ ?_
  · exact (Cert.Lib.Column.broadcastTo_a1_ab_apply _ _ r c).trans
      ((Cert.Lib.Column.shapeCast_a_a1_apply _ _ r (0 : Fin 1)).trans
        (sqSum_apply _ (bpt u0) (pay8_apply u0) r))
  · exact (broadcastTo_1b_ab_apply _ _ r c).trans
      ((transpose_ix2_apply _ _ (0 : Fin 1) c).trans
        ((Cert.Lib.Column.shapeCast_a_a1_apply _ _ c (0 : Fin 1)).trans
          (sqSum_apply _ (bpt u1) (pay9_apply u1) c)))

theorem pay1_apply (u0 u1 : Vec Ideal S1x1024x3 .f32) (r c : Fin 1024) :
    k0_pay1 (F := Ideal) (k0_pay10 u0 u1) (k0_pay11 u0 u1) k0_pay12 (ix2 r c) = dist (bpt u0 r) (bpt u1 c) := by
  unfold k0_pay1 k0_pay12 dist
  show Ideal.sqrt (max (k0_pay11 u0 u1 (ix2 r c) - Ideal.ofBits .f32 0x40000000#32 * k0_pay10 u0 u1 (ix2 r c))
    (Ideal.ofBits .f32 0x00000000#32)) = _
  rw [pay10_apply, pay11_apply]

/-- Over the row index `r`, the index of the tile whose column coordinate is `k` is `(r, k)`. -/
theorem lift_axis1 (r : Fin 1024) (k : Fin 1024) :
    reduces_S1024x1024_S1024.lift (ix1 r) k = ix2 r k :=
  funext fun c => Fin.ext (by
    match c with
    | ⟨0, _⟩ => rfl
    | ⟨1, _⟩ => rfl)

/-- Over the column index `c`, the index of the tile whose row coordinate is `k` is `(k, c)`. -/
theorem lift_axis0 (c : Fin 1024) (k : Fin 1024) :
    reduces_S1024x1024_S1024_2.lift (ix1 c) k = ix2 k c :=
  funext fun a => Fin.ext (by
    match a with
    | ⟨0, _⟩ => rfl
    | ⟨1, _⟩ => rfl)

/-- A fold of the minimum from the top element over the 1024 coordinates of one axis is the infimum of the family. -/
theorem fold_minimumf_top (f : Fin 1024 → EReal) :
    Finset.fold (FloatOps.minimumf (F := Ideal) (φ := .f32)) (FloatOps.ofBits (F := Ideal) .f32 0x7F800000#32) f Finset.univ
      = ⨅ k, f k := by
  show Finset.fold min (Ideal.ofBits .f32 0x7F800000#32) f Finset.univ = _
  rw [fold_min_eq, ofBits_inf, min_eq_right le_top]

theorem pay2_apply (u0 u1 : Vec Ideal S1x1024x3 .f32) (acc : Vec Ideal S1024 .f32) (r : Fin 1024) :
    k0_pay2 (F := Ideal) (k0_pay10 u0 u1) (k0_pay11 u0 u1) k0_pay12 acc (ix1 r)
      = min (acc (ix1 r)) (⨅ c : Fin 1024, dist (bpt u0 r) (bpt u1 c)) := by
  unfold k0_pay2
  rw [shapeCast_self, minimumf_apply]
  refine congrArg (min (acc (ix1 r))) ?_
  refine (multiReduction_minimumf_eq_fold _ _ _ _ _ _).trans ?_
  refine (reduces_S1024x1024_S1024.fold_filter_drop_single _ _ _ _).trans ?_
  refine (fold_minimumf_top _).trans (iInf_congr fun k => ?_)
  exact (congrArg (k0_pay1 (F := Ideal) (k0_pay10 u0 u1) (k0_pay11 u0 u1) k0_pay12) (lift_axis1 r k)).trans
    (pay1_apply u0 u1 r k)

theorem pay3_apply (u0 u1 : Vec Ideal S1x1024x3 .f32) (acc : Vec Ideal S1024 .f32) (c : Fin 1024) :
    k0_pay3 (F := Ideal) (k0_pay10 u0 u1) (k0_pay11 u0 u1) k0_pay12 acc (ix1 c)
      = min (acc (ix1 c)) (⨅ r : Fin 1024, dist (bpt u0 r) (bpt u1 c)) := by
  unfold k0_pay3
  rw [shapeCast_self, minimumf_apply]
  refine congrArg (min (acc (ix1 c))) ?_
  refine (multiReduction_minimumf_eq_fold _ _ _ _ _ _).trans ?_
  refine (reduces_S1024x1024_S1024_2.fold_filter_drop_single _ _ _ _).trans ?_
  refine (fold_minimumf_top _).trans (iInf_congr fun k => ?_)
  exact (congrArg (k0_pay1 (F := Ideal) (k0_pay10 u0 u1) (k0_pay11 u0 u1) k0_pay12) (lift_axis0 c k)).trans
    (pay1_apply u0 u1 k c)

theorem pay4_apply (v : Vec Ideal S1024 .f32) (r : Fin 1024) :
    k0_pay4 (F := Ideal) v (ix3 (0 : Fin 1) (0 : Fin 1) r) = v (ix1 r) := by
  unfold k0_pay4
  refine shapeCast_apply v _ _ _ ?_
  rw [Shape.rowMajor_val_three, Shape.rowMajor_val_one]
  show r.val = (0 * 1 + 0) * 1024 + r.val
  omega

theorem pay5_apply (v : Vec Ideal S8192 .f32) (q : Fin 8192) :
    k0_pay5 (F := Ideal) v (ix3 (0 : Fin 1) (0 : Fin 1) q) = v (ix1 q) := by
  unfold k0_pay5
  refine shapeCast_apply v _ _ _ ?_
  rw [Shape.rowMajor_val_three, Shape.rowMajor_val_one]
  show q.val = (0 * 1 + 0) * 8192 + q.val
  omega

theorem pay6_apply (r : Fin 1024) : k0_pay6 (F := Ideal) (ix1 r) = (⊤ : EReal) := by
  unfold k0_pay6
  rw [shapeCast_self]
  exact ofBits_inf

theorem pay7_apply (q : Fin 8192) : k0_pay7 (F := Ideal) (ix1 q) = (⊤ : EReal) := by
  unfold k0_pay7
  rw [shapeCast_self]
  exact ofBits_inf

end Cert.Chamfer.Pay

end
-- ==== Proof.PiecesDefs.lean ====
/-
  What each case of the body leaves in the two accumulators and the two output blocks: shared definitions.
-/
import proofs.«177700_j70927089926224_1_alg».proof.Proof.Gen.KernelIdeal.Skeleton
import proofs.«177700_j70927089926224_1_alg».proof.Proof.Spec
import Idealize.ShloMosaic.Lib.Pipeline.Value

noncomputable section

namespace Cert.Chamfer.Pieces

open Idealize.ShloMosaic Idealize.ShloMosaic.TcCoe Idealize.SL.Sem Idealize.ShloMosaic.ValueIdx Cert.KernelIdeal Cert.KernelIdeal.Gen Cert.Chamfer

variable {F : FTy → Type} [FloatOps F]

/-- The slab of the second accumulator the body updates at a point lies inside it. -/
theorem hoff (i : grid0.Coords) : k0_off1 i 0 + 1024 ≤ 8192 := k0_off1_inb i 0

/-- The running row minimum after this point's block, from the accumulator `acc`. -/
abbrev rowAcc (x0 x1 : Vec F S1x1024x3 .f32) (acc : Vec F S1024 .f32) : Vec F S1024 .f32 :=
  k0_pay2 (k0_pay10 x0 x1) (k0_pay11 x0 x1) k0_pay12 acc

/-- The second accumulator `acc` with this point's slab updated by the running column minimum. -/
abbrev colAcc (i : grid0.Coords) (x0 x1 : Vec F S1x1024x3 .f32) (acc : Vec F S8192 .f32) : Vec F S8192 .f32 :=
  upd (k0_off1 i 0) (hoff i) acc (k0_pay3 (k0_pay10 x0 x1) (k0_pay11 x0 x1) k0_pay12 (slab (k0_off1 i 0) (hoff i) acc))

end Cert.Chamfer.Pieces

end
-- ==== Proof.PiecesAD.lean ====
/-
  What the body leaves in the two accumulators at a point that resets the first one (the first column block of a row block): cases A and D.
-/
import proofs.«177700_j70927089926224_1_alg».proof.Proof.Gen.KernelIdeal.Frame
import proofs.«177700_j70927089926224_1_alg».proof.Proof.PiecesDefs
import Idealize.ShloMosaic.Lib.Pipeline.Value
import Idealize.ShloMosaic.Lib.Tactic

noncomputable section

namespace Cert.Chamfer.Pieces

open Idealize.ShloMosaic Idealize.ShloMosaic.TcCoe Idealize.SL.Sem Idealize.ShloMosaic.ValueIdx Cert.KernelIdeal Cert.KernelIdeal.Gen Cert.Chamfer
open Cert.Lib.Slab

variable {F : FTy → Type} [FloatOps F]

/-! ## The second accumulator reset whole, then its slab stored (case A) -/

/-- The whole vector stored as `z`, then `w` stored through the slab's rectangle at `off`: what the two stores leave
    is `z` with that slab replaced by `w`. Inside the slab the later store decides; outside it the index is not in the
    slab's rectangle and the earlier store of the whole vector decides. -/
theorem canon_reset_then_slab {Val : EltTy → Type} [∀ e, Nonempty (Val e)] (off : Fin 1 → Nat)
    (inb : ∀ a, off a + S1024.size a ≤ S8192.size a) (h : off 0 + 1024 ≤ 8192) (w : S1024.Idx → Val .f32)
    {off0 : Fin 1 → Nat} (h0 : off0 = fun _ => 0) (inb0 : ∀ a, off0 a + S8192.size a ≤ S8192.size a)
    (z : S8192.Idx → Val .f32) :
    View.canon [(⟨Rect.unit (s := S8192) off S1024.size inb, w⟩ : View.Piece Val S8192 .f32),
        ⟨Rect.unit (s := S8192) off0 S8192.size inb0, z⟩]
      = upd (off 0) h z w := by
  funext q
  obtain ⟨k, rfl⟩ : ∃ k : Fin 8192, q = ix1 k := ⟨q 0, eq_ix1 q⟩
  by_cases hq : off 0 ≤ k.val ∧ k.val < off 0 + 1024
  · have hemb : (Rect.unit (s := S8192) off S1024.size inb).emb (ix1 ⟨k.val - off 0, by omega⟩) = ix1 k := by
      funext a
      match a with
      | ⟨0, _⟩ =>
        apply Fin.ext
        show off 0 + 1 * (k.val - off 0) = k.val
        omega
    rw [upd_apply_in _ _ _ _ _ hq, ← hemb, View.canon_cons_emb]
  · have hn : ix1 k ∉ (Rect.unit (s := S8192) off S1024.size inb).set := by
      rw [Rect.mem_set_unit]
      intro hall
      exact hq (hall 0)
    rw [upd_apply_out _ _ _ _ _ hq]
    refine (View.canon_cons_of_not_mem (⟨Rect.unit (s := S8192) off S1024.size inb, w⟩ : View.Piece Val S8192 .f32)
      [⟨Rect.unit (s := S8192) off0 S8192.size inb0, z⟩] hn).trans ?_
    rw [View.canon_unit_zero (S := S8192) h0]

/-! ## Case A -/

/-- Case A: the first accumulator, reset to the top element and then stored whole once, ends as the running row minimum from the top element. -/
theorem sout_A_0 (c : Dev nD) (i : grid0.Coords) (a3 : Memref sig .tc .vmem S1x1024x3 .f32) (h3 : a3.IsWhole) (a4 : Memref sig .tc .vmem S1x1024x3 .f32) (h4 : a4.IsWhole) (a5 : Memref sig .tc .vmem S1x1x1024 .f32) (h5 : a5.IsWhole) (a6 : Memref sig .tc .vmem S1x1x8192 .f32) (h6 : a6.IsWhole) (a7 : Memref sig .tc .vmem S1024 .f32) (h7 : a7.IsWhole) (a8 : Memref sig .tc .vmem S8192 .f32) (h8 : a8.IsWhole) (hc0 : cond0_0 i) (hc1 : cond0_1 i) (hc2 : ¬cond0_2 i) (hc3 : ¬cond0_3 i)
    (x0 x1 : Vec F S1x1024x3 .f32) :
    sout0_A_0 c i a3 h3 a4 h4 a5 h5 a6 h6 a7 h7 a8 h8 hc0 hc1 hc2 hc3 x0 x1 = rowAcc x0 x1 k0_pay6 := by
  unfold sout0_A_0
  rw [View.read_writes_eq_canon _ _ _ (scover0_A_0 c i a3 h3 a4 h4 a5 h5 a6 h6 a7 h7 a8 h8 hc0 hc1 hc2 hc3 x0 x1)]
  unfold kernelRun0_A
  dsimp only
  sl_unfold_words
  rw [View.canon_cons_unit_zero (S := S1024) hz1, View.readCov_unit_zero (S := S1024) _ hz1]
  simp only [View.readAt_eq_ld, h3.read_unread, h4.read_unread, View.ld_unit_zero (S := S1x1024x3) hz3]

/-- Case A: the second accumulator, reset whole to the top element and then updated on this point's slab, ends as the top element with that slab at the running column minimum. -/
theorem sout_A_1 (c : Dev nD) (i : grid0.Coords) (a3 : Memref sig .tc .vmem S1x1024x3 .f32) (h3 : a3.IsWhole) (a4 : Memref sig .tc .vmem S1x1024x3 .f32) (h4 : a4.IsWhole) (a5 : Memref sig .tc .vmem S1x1x1024 .f32) (h5 : a5.IsWhole) (a6 : Memref sig .tc .vmem S1x1x8192 .f32) (h6 : a6.IsWhole) (a7 : Memref sig .tc .vmem S1024 .f32) (h7 : a7.IsWhole) (a8 : Memref sig .tc .vmem S8192 .f32) (h8 : a8.IsWhole) (hc0 : cond0_0 i) (hc1 : cond0_1 i) (hc2 : ¬cond0_2 i) (hc3 : ¬cond0_3 i)
    (x0 x1 : Vec F S1x1024x3 .f32) :
    sout0_A_1 c i a3 h3 a4 h4 a5 h5 a6 h6 a7 h7 a8 h8 hc0 hc1 hc2 hc3 x0 x1 = colAcc i x0 x1 k0_pay7 := by
  unfold sout0_A_1
  rw [View.read_writes_eq_canon _ _ _ (scover0_A_1 c i a3 h3 a4 h4 a5 h5 a6 h6 a7 h7 a8 h8 hc0 hc1 hc2 hc3 x0 x1)]
  unfold kernelRun0_A
  dsimp only
  sl_unfold_run_names
  rw [canon_reset_then_slab (k0_off1 i) (k0_off1_inb i) (hoff i) _ hz1, View.readAt_eq_ld a8.view,
    View.read_writes_junk_eq_canon, View.canon_unit_zero (S := S8192) hz1,
    ld_slab (Val := Elt F) (e := .f32) (N := 8192) (L := 1024) (k0_pay7 (F := F)) (k0_off1 i) (k0_off1_inb i) (hoff i)]
  simp only [View.readAt_eq_ld, h3.read_unread, h4.read_unread, View.ld_unit_zero (S := S1x1024x3) hz3]

/-! ## Case D -/

/-- Case D: the first accumulator restarts as in case A: the running row minimum from the top element. -/
theorem sout_D_0 (c : Dev nD) (i : grid0.Coords) (a3 : Memref sig .tc .vmem S1x1024x3 .f32) (h3 : a3.IsWhole) (a4 : Memref sig .tc .vmem S1x1024x3 .f32) (h4 : a4.IsWhole) (a5 : Memref sig .tc .vmem S1x1x1024 .f32) (h5 : a5.IsWhole) (a6 : Memref sig .tc .vmem S1x1x8192 .f32) (h6 : a6.IsWhole) (a7 : Memref sig .tc .vmem S1024 .f32) (h7 : a7.IsWhole) (a8 : Memref sig .tc .vmem S8192 .f32) (h8 : a8.IsWhole) (hc0 : cond0_0 i) (hc1 : ¬cond0_1 i) (hc2 : ¬cond0_2 i) (hc3 : ¬cond0_3 i)
    (x0 x1 : Vec F S1x1024x3 .f32) (xs1 : Vec F S8192 .f32) :
    sout0_D_0 c i a3 h3 a4 h4 a5 h5 a6 h6 a7 h7 a8 h8 hc0 hc1 hc2 hc3 x0 x1 xs1 = rowAcc x0 x1 k0_pay6 := by
  unfold sout0_D_0
  rw [View.read_writes_eq_canon _ _ _ (scover0_D_0 c i a3 h3 a4 h4 a5 h5 a6 h6 a7 h7 a8 h8 hc0 hc1 hc2 hc3 x0 x1 xs1)]
  unfold kernelRun0_D
  dsimp only
  sl_unfold_words
  rw [View.canon_cons_unit_zero (S := S1024) hz1, View.readCov_unit_zero (S := S1024) _ hz1]
  simp only [View.readAt_eq_ld, h3.read_unread, h4.read_unread, View.ld_unit_zero (S := S1x1024x3) hz3]

/-- Case D: the second accumulator is not reset: what it held, with this point's slab updated by the running column minimum. -/
theorem sout_D_1 (c : Dev nD) (i : grid0.Coords) (a3 : Memref sig .tc .vmem S1x1024x3 .f32) (h3 : a3.IsWhole) (a4 : Memref sig .tc .vmem S1x1024x3 .f32) (h4 : a4.IsWhole) (a5 : Memref sig .tc .vmem S1x1x1024 .f32) (h5 : a5.IsWhole) (a6 : Memref sig .tc .vmem S1x1x8192 .f32) (h6 : a6.IsWhole) (a7 : Memref sig .tc .vmem S1024 .f32) (h7 : a7.IsWhole) (a8 : Memref sig .tc .vmem S8192 .f32) (h8 : a8.IsWhole) (hc0 : cond0_0 i) (hc1 : ¬cond0_1 i) (hc2 : ¬cond0_2 i) (hc3 : ¬cond0_3 i)
    (x0 x1 : Vec F S1x1024x3 .f32) (xs1 : Vec F S8192 .f32) :
    sout0_D_1 c i a3 h3 a4 h4 a5 h5 a6 h6 a7 h7 a8 h8 hc0 hc1 hc2 hc3 x0 x1 xs1 = colAcc i x0 x1 xs1 := by
  unfold sout0_D_1
  unfold kernelRun0_D
  dsimp only
  rw [read_writes_slab a8.view (h8.unread xs1) xs1 (h8.read_unread xs1) (k0_off1 i) (k0_off1_inb i) (hoff i),
    View.readAt_eq_ld, h8.read_unread, ld_slab xs1 (k0_off1 i) (k0_off1_inb i) (hoff i)]
  sl_unfold_run_names
  simp only [View.readAt_eq_ld, h3.read_unread, h4.read_unread, View.ld_unit_zero (S := S1x1024x3) hz3]

end Cert.Chamfer.Pieces

end
-- ==== Proof.PiecesBCE.lean ====
/-
  What the body leaves in the two accumulators and in the output blocks at a point that continues a row block: cases B, C and E.
-/
import proofs.«177700_j70927089926224_1_alg».proof.Proof.Gen.KernelIdeal.Frame
import proofs.«177700_j70927089926224_1_alg».proof.Proof.PiecesDefs
import Idealize.ShloMosaic.Lib.Pipeline.Value
import Idealize.ShloMosaic.Lib.Tactic

noncomputable section

namespace Cert.Chamfer.Pieces

open Idealize.ShloMosaic Idealize.ShloMosaic.TcCoe Idealize.SL.Sem Idealize.ShloMosaic.ValueIdx Cert.KernelIdeal Cert.KernelIdeal.Gen Cert.Chamfer
open Cert.Lib.Slab

variable {F : FTy → Type} [FloatOps F]

/-! ## Case B -/

/-- Case B: the first accumulator, loaded whole and stored whole once, ends as the running row minimum of what it held. -/
theorem sout_B_0 (c : Dev nD) (i : grid0.Coords) (a3 : Memref sig .tc .vmem S1x1024x3 .f32) (h3 : a3.IsWhole) (a4 : Memref sig .tc .vmem S1x1024x3 .f32) (h4 : a4.IsWhole) (a5 : Memref sig .tc .vmem S1x1x1024 .f32) (h5 : a5.IsWhole) (a6 : Memref sig .tc .vmem S1x1x8192 .f32) (h6 : a6.IsWhole) (a7 : Memref sig .tc .vmem S1024 .f32) (h7 : a7.IsWhole) (a8 : Memref sig .tc .vmem S8192 .f32) (h8 : a8.IsWhole) (hc0 : ¬cond0_0 i) (hc1 : ¬cond0_1 i) (hc2 : ¬cond0_2 i) (hc3 : ¬cond0_3 i)
    (x0 x1 : Vec F S1x1024x3 .f32) (xs0 : Vec F S1024 .f32) (xs1 : Vec F S8192 .f32) :
    sout0_B_0 c i a3 h3 a4 h4 a5 h5 a6 h6 a7 h7 a8 h8 hc0 hc1 hc2 hc3 x0 x1 xs0 xs1 = rowAcc x0 x1 xs0 := by
  unfold sout0_B_0
  rw [View.read_writes_eq_canon _ _ _ (scover0_B_0 c i a3 h3 a4 h4 a5 h5 a6 h6 a7 h7 a8 h8 hc0 hc1 hc2 hc3 x0 x1 xs0 xs1)]
  unfold kernelRun0_B
  dsimp only
  sl_unfold_run_names
  rw [View.canon_unit_zero hz1]
  simp only [View.readAt_eq_ld, h3.read_unread, h4.read_unread, h7.read_unread, View.ld_unit_zero (S := S1024) hz1,
    View.ld_unit_zero (S := S1x1024x3) hz3]

/-- Case B: the second accumulator has its slab at this point's offset replaced by the running column minimum of that
    slab; every other entry keeps what it held. -/
theorem sout_B_1 (c : Dev nD) (i : grid0.Coords) (a3 : Memref sig .tc .vmem S1x1024x3 .f32) (h3 : a3.IsWhole) (a4 : Memref sig .tc .vmem S1x1024x3 .f32) (h4 : a4.IsWhole) (a5 : Memref sig .tc .vmem S1x1x1024 .f32) (h5 : a5.IsWhole) (a6 : Memref sig .tc .vmem S1x1x8192 .f32) (h6 : a6.IsWhole) (a7 : Memref sig .tc .vmem S1024 .f32) (h7 : a7.IsWhole) (a8 : Memref sig .tc .vmem S8192 .f32) (h8 : a8.IsWhole) (hc0 : ¬cond0_0 i) (hc1 : ¬cond0_1 i) (hc2 : ¬cond0_2 i) (hc3 : ¬cond0_3 i)
    (x0 x1 : Vec F S1x1024x3 .f32) (xs0 : Vec F S1024 .f32) (xs1 : Vec F S8192 .f32) :
    sout0_B_1 c i a3 h3 a4 h4 a5 h5 a6 h6 a7 h7 a8 h8 hc0 hc1 hc2 hc3 x0 x1 xs0 xs1 = colAcc i x0 x1 xs1 := by
  unfold sout0_B_1
  unfold kernelRun0_B
  dsimp only
  sl_unfold_run_names
  rw [read_writes_slab a8.view (h8.unread xs1) xs1 (h8.read_unread xs1) (k0_off1 i) _ (hoff i)]
  simp only [View.readAt_eq_ld, h3.read_unread, h4.read_unread, h8.read_unread, View.ld_unit_zero (S := S1x1024x3) hz3,
    ld_slab xs1 (k0_off1 i) _ (hoff i)]

/-! ## Case C -/

/-- Case C: the first accumulator ends as the running row minimum of what it held, as in case B. -/
theorem sout_C_0 (c : Dev nD) (i : grid0.Coords) (a3 : Memref sig .tc .vmem S1x1024x3 .f32) (h3 : a3.IsWhole) (a4 : Memref sig .tc .vmem S1x1024x3 .f32) (h4 : a4.IsWhole) (a5 : Memref sig .tc .vmem S1x1x1024 .f32) (h5 : a5.IsWhole) (a6 : Memref sig .tc .vmem S1x1x8192 .f32) (h6 : a6.IsWhole) (a7 : Memref sig .tc .vmem S1024 .f32) (h7 : a7.IsWhole) (a8 : Memref sig .tc .vmem S8192 .f32) (h8 : a8.IsWhole) (hc0 : ¬cond0_0 i) (hc1 : ¬cond0_1 i) (hc2 : cond0_2 i) (hc3 : ¬cond0_3 i)
    (x0 x1 : Vec F S1x1024x3 .f32) (xs0 : Vec F S1024 .f32) (xs1 : Vec F S8192 .f32) :
    sout0_C_0 c i a3 h3 a4 h4 a5 h5 a6 h6 a7 h7 a8 h8 hc0 hc1 hc2 hc3 x0 x1 xs0 xs1 = rowAcc x0 x1 xs0 := by
  unfold sout0_C_0
  rw [View.read_writes_eq_canon _ _ _ (scover0_C_0 c i a3 h3 a4 h4 a5 h5 a6 h6 a7 h7 a8 h8 hc0 hc1 hc2 hc3 x0 x1 xs0 xs1)]
  unfold kernelRun0_C
  dsimp only
  sl_unfold_run_names
  rw [View.canon_unit_zero hz1]
  simp only [View.readAt_eq_ld, h3.read_unread, h4.read_unread, h7.read_unread, View.ld_unit_zero (S := S1024) hz1,
    View.ld_unit_zero (S := S1x1024x3) hz3]

/-- Case C: the second accumulator ends with this point's slab updated, as in case B. -/
theorem sout_C_1 (c : Dev nD) (i : grid0.Coords) (a3 : Memref sig .tc .vmem S1x1024x3 .f32) (h3 : a3.IsWhole) (a4 : Memref sig .tc .vmem S1x1024x3 .f32) (h4 : a4.IsWhole) (a5 : Memref sig .tc .vmem S1x1x1024 .f32) (h5 : a5.IsWhole) (a6 : Memref sig .tc .vmem S1x1x8192 .f32) (h6 : a6.IsWhole) (a7 : Memref sig .tc .vmem S1024 .f32) (h7 : a7.IsWhole) (a8 : Memref sig .tc .vmem S8192 .f32) (h8 : a8.IsWhole) (hc0 : ¬cond0_0 i) (hc1 : ¬cond0_1 i) (hc2 : cond0_2 i) (hc3 : ¬cond0_3 i)
    (x0 x1 : Vec F S1x1024x3 .f32) (xs0 : Vec F S1024 .f32) (xs1 : Vec F S8192 .f32) :
    sout0_C_1 c i a3 h3 a4 h4 a5 h5 a6 h6 a7 h7 a8 h8 hc0 hc1 hc2 hc3 x0 x1 xs0 xs1 = colAcc i x0 x1 xs1 := by
  unfold sout0_C_1
  unfold kernelRun0_C
  dsimp only
  sl_unfold_run_names
  rw [read_writes_slab a8.view (h8.unread xs1) xs1 (h8.read_unread xs1) (k0_off1 i) _ (hoff i)]
  simp only [View.readAt_eq_ld, h3.read_unread, h4.read_unread, h8.read_unread, View.ld_unit_zero (S := S1x1024x3) hz3,
    ld_slab xs1 (k0_off1 i) _ (hoff i)]

/-- Case C: the block stored to the third output is the first accumulator read back after its update, reshaped to
    one row: the payload of the store applied to the running row minimum. -/
theorem out_C_2 (c : Dev nD) (i : grid0.Coords) (a3 : Memref sig .tc .vmem S1x1024x3 .f32) (h3 : a3.IsWhole) (a4 : Memref sig .tc .vmem S1x1024x3 .f32) (h4 : a4.IsWhole) (a5 : Memref sig .tc .vmem S1x1x1024 .f32) (h5 : a5.IsWhole) (a6 : Memref sig .tc .vmem S1x1x8192 .f32) (h6 : a6.IsWhole) (a7 : Memref sig .tc .vmem S1024 .f32) (h7 : a7.IsWhole) (a8 : Memref sig .tc .vmem S8192 .f32) (h8 : a8.IsWhole) (hc0 : ¬cond0_0 i) (hc1 : ¬cond0_1 i) (hc2 : cond0_2 i) (hc3 : ¬cond0_3 i)
    (x0 x1 : Vec F S1x1024x3 .f32) (xs0 : Vec F S1024 .f32) (xs1 : Vec F S8192 .f32) :
    out0_C_2 c i a3 h3 a4 h4 a5 h5 a6 h6 a7 h7 a8 h8 hc0 hc1 hc2 hc3 x0 x1 xs0 xs1 = k0_pay4 (rowAcc x0 x1 xs0) := by
  unfold out0_C_2
  rw [View.read_writes_eq_canon _ _ _ (cover0_C_2 c i a3 h3 a4 h4 a5 h5 a6 h6 a7 h7 a8 h8 hc0 hc1 hc2 hc3 x0 x1 xs0 xs1)]
  unfold kernelRun0_C
  dsimp only
  sl_unfold_run_names
  rw [View.canon_unit_zero hz3]
  simp only [View.readAt_eq_ld, h3.read_unread, h4.read_unread, h7.read_unread, View.ld_unit_zero (S := S1024) hz1,
    View.ld_unit_zero (S := S1x1024x3) hz3, View.readCov_unit_zero (S := S1024) _ hz1]

/-! ## Case E -/

/-- Case E: the first accumulator ends as the running row minimum of what it held, as in case B. -/
theorem sout_E_0 (c : Dev nD) (i : grid0.Coords) (a3 : Memref sig .tc .vmem S1x1024x3 .f32) (h3 : a3.IsWhole) (a4 : Memref sig .tc .vmem S1x1024x3 .f32) (h4 : a4.IsWhole) (a5 : Memref sig .tc .vmem S1x1x1024 .f32) (h5 : a5.IsWhole) (a6 : Memref sig .tc .vmem S1x1x8192 .f32) (h6 : a6.IsWhole) (a7 : Memref sig .tc .vmem S1024 .f32) (h7 : a7.IsWhole) (a8 : Memref sig .tc .vmem S8192 .f32) (h8 : a8.IsWhole) (hc0 : ¬cond0_0 i) (hc1 : ¬cond0_1 i) (hc2 : cond0_2 i) (hc3 : cond0_3 i)
    (x0 x1 : Vec F S1x1024x3 .f32) (xs0 : Vec F S1024 .f32) (xs1 : Vec F S8192 .f32) :
    sout0_E_0 c i a3 h3 a4 h4 a5 h5 a6 h6 a7 h7 a8 h8 hc0 hc1 hc2 hc3 x0 x1 xs0 xs1 = rowAcc x0 x1 xs0 := by
  unfold sout0_E_0
  rw [View.read_writes_eq_canon _ _ _ (scover0_E_0 c i a3 h3 a4 h4 a5 h5 a6 h6 a7 h7 a8 h8 hc0 hc1 hc2 hc3 x0 x1 xs0 xs1)]
  unfold kernelRun0_E
  dsimp only
  sl_unfold_run_names
  rw [View.canon_unit_zero hz1]
  simp only [View.readAt_eq_ld, h3.read_unread, h4.read_unread, h7.read_unread, View.ld_unit_zero (S := S1024) hz1,
    View.ld_unit_zero (S := S1x1024x3) hz3]

/-- Case E: the second accumulator ends with this point's slab updated, as in case B. -/
theorem sout_E_1 (c : Dev nD) (i : grid0.Coords) (a3 : Memref sig .tc .vmem S1x1024x3 .f32) (h3 : a3.IsWhole) (a4 : Memref sig .tc .vmem S1x1024x3 .f32) (h4 : a4.IsWhole) (a5 : Memref sig .tc .vmem S1x1x1024 .f32) (h5 : a5.IsWhole) (a6 : Memref sig .tc .vmem S1x1x8192 .f32) (h6 : a6.IsWhole) (a7 : Memref sig .tc .vmem S1024 .f32) (h7 : a7.IsWhole) (a8 : Memref sig .tc .vmem S8192 .f32) (h8 : a8.IsWhole) (hc0 : ¬cond0_0 i) (hc1 : ¬cond0_1 i) (hc2 : cond0_2 i) (hc3 : cond0_3 i)
    (x0 x1 : Vec F S1x1024x3 .f32) (xs0 : Vec F S1024 .f32) (xs1 : Vec F S8192 .f32) :
    sout0_E_1 c i a3 h3 a4 h4 a5 h5 a6 h6 a7 h7 a8 h8 hc0 hc1 hc2 hc3 x0 x1 xs0 xs1 = colAcc i x0 x1 xs1 := by
  unfold sout0_E_1
  unfold kernelRun0_E
  dsimp only
  sl_unfold_run_names
  rw [read_writes_slab a8.view (h8.unread xs1) xs1 (h8.read_unread xs1) (k0_off1 i) _ (hoff i)]
  simp only [View.readAt_eq_ld, h3.read_unread, h4.read_unread, h8.read_unread, View.ld_unit_zero (S := S1x1024x3) hz3,
    ld_slab xs1 (k0_off1 i) _ (hoff i)]

/-- Case E: the block stored to the third output is the updated first accumulator reshaped to one row, as in case C. -/
theorem out_E_2 (c : Dev nD) (i : grid0.Coords) (a3 : Memref sig .tc .vmem S1x1024x3 .f32) (h3 : a3.IsWhole) (a4 : Memref sig .tc .vmem S1x1024x3 .f32) (h4 : a4.IsWhole) (a5 : Memref sig .tc .vmem S1x1x1024 .f32) (h5 : a5.IsWhole) (a6 : Memref sig .tc .vmem S1x1x8192 .f32) (h6 : a6.IsWhole) (a7 : Memref sig .tc .vmem S1024 .f32) (h7 : a7.IsWhole) (a8 : Memref sig .tc .vmem S8192 .f32) (h8 : a8.IsWhole) (hc0 : ¬cond0_0 i) (hc1 : ¬cond0_1 i) (hc2 : cond0_2 i) (hc3 : cond0_3 i)
    (x0 x1 : Vec F S1x1024x3 .f32) (xs0 : Vec F S1024 .f32) (xs1 : Vec F S8192 .f32) :
    out0_E_2 c i a3 h3 a4 h4 a5 h5 a6 h6 a7 h7 a8 h8 hc0 hc1 hc2 hc3 x0 x1 xs0 xs1 = k0_pay4 (rowAcc x0 x1 xs0) := by
  unfold out0_E_2
  rw [View.read_writes_eq_canon _ _ _ (cover0_E_2 c i a3 h3 a4 h4 a5 h5 a6 h6 a7 h7 a8 h8 hc0 hc1 hc2 hc3 x0 x1 xs0 xs1)]
  unfold kernelRun0_E
  dsimp only
  sl_unfold_run_names
  rw [View.canon_unit_zero hz3]
  simp only [View.readAt_eq_ld, h3.read_unread, h4.read_unread, h7.read_unread, View.ld_unit_zero (S := S1024) hz1,
    View.ld_unit_zero (S := S1x1024x3) hz3, View.readCov_unit_zero (S := S1024) _ hz1]

/-- Case E: the block stored to the fourth output is the whole second accumulator read back after its slab was
    updated, reshaped to one row. -/
theorem out_E_3 (c : Dev nD) (i : grid0.Coords) (a3 : Memref sig .tc .vmem S1x1024x3 .f32) (h3 : a3.IsWhole) (a4 : Memref sig .tc .vmem S1x1024x3 .f32) (h4 : a4.IsWhole) (a5 : Memref sig .tc .vmem S1x1x1024 .f32) (h5 : a5.IsWhole) (a6 : Memref sig .tc .vmem S1x1x8192 .f32) (h6 : a6.IsWhole) (a7 : Memref sig .tc .vmem S1024 .f32) (h7 : a7.IsWhole) (a8 : Memref sig .tc .vmem S8192 .f32) (h8 : a8.IsWhole) (hc0 : ¬cond0_0 i) (hc1 : ¬cond0_1 i) (hc2 : cond0_2 i) (hc3 : cond0_3 i)
    (x0 x1 : Vec F S1x1024x3 .f32) (xs0 : Vec F S1024 .f32) (xs1 : Vec F S8192 .f32) :
    out0_E_3 c i a3 h3 a4 h4 a5 h5 a6 h6 a7 h7 a8 h8 hc0 hc1 hc2 hc3 x0 x1 xs0 xs1 = k0_pay5 (colAcc i x0 x1 xs1) := by
  unfold out0_E_3
  rw [View.read_writes_eq_canon _ _ _ (cover0_E_3 c i a3 h3 a4 h4 a5 h5 a6 h6 a7 h7 a8 h8 hc0 hc1 hc2 hc3 x0 x1 xs0 xs1)]
  unfold kernelRun0_E
  dsimp only
  sl_unfold_run_names
  rw [View.canon_unit_zero hz3]
  simp only [View.readAt_eq_ld]
  rw [read_writes_slab a8.view (h8.unread xs1) xs1 (h8.read_unread xs1) (k0_off1 i) _ (hoff i)]
  simp only [h3.read_unread, h4.read_unread, h8.read_unread, View.ld_unit_zero (S := S1x1024x3) hz3,
    View.ld_unit_zero (S := S8192) hz1, ld_slab xs1 (k0_off1 i) _ (hoff i)]

end Cert.Chamfer.Pieces

end
-- ==== Proof.Invariant.lean ====
/-
  What the two accumulators hold after each grid point, and what the output blocks hold at the points that store them.

  After point t = (b, i, j) the first accumulator holds, for row r of row block i, the infimum of the distances to the
  points of y's cloud b in column blocks 0 … j; the second holds, at q, the infimum of the distances from the points
  of x's cloud b in row blocks 0 … i where q lies in column blocks 0 … j, and in row blocks 0 … i - 1 elsewhere.
  By induction along the grid: the first accumulator restarts from the top element at j = 0, the second at
  (i, j) = (0, 0), and each point takes the minimum with the infimum over its own block (`infBelow_add`).
-/
import proofs.«177700_j70927089926224_1_alg».proof.Proof.Blocks
import proofs.«177700_j70927089926224_1_alg».proof.Proof.Payload
import proofs.«177700_j70927089926224_1_alg».proof.Proof.PiecesAD
import proofs.«177700_j70927089926224_1_alg».proof.Proof.PiecesBCE

noncomputable section

namespace Cert.Chamfer.Inv

open Idealize.ShloMosaic Idealize.ShloMosaic.TcCoe Idealize.SL.Sem Idealize.ShloMosaic.ValueIdx Cert.KernelIdeal Cert.KernelIdeal.Gen Cert.Chamfer
open Idealize.ShloMosaic.Pipeline (Dat)
open Cert.Chamfer.Blk Cert.Chamfer.Pay Cert.Chamfer.Pieces

variable (m : (ℓ : Loc nD τ sig) → Buf (Elt Ideal) ℓ)

/-! ## One point's update, at an index -/

/-- A row of the first block against a row of the second is a pair of points of the two clouds. -/
theorem dist_blk (c : Dev nD) (t : Fin cfg0.N) (r q : Fin 1024) :
    dist (bpt (xblk m c t) r) (bpt (yblk m c t) q)
      = P (xarr m c) (yarr m c) (bOf t) (rowIx (iOf t) r) (rowIx (jOf t) q) := by
  have ex : bpt (xblk m c t) r = pt (xarr m c) (bOf t) (rowIx (iOf t) r) := funext fun d => xblk_apply m c t r d
  have ey : bpt (yblk m c t) q = pt (yarr m c) (bOf t) (rowIx (jOf t) q) := funext fun d => yblk_apply m c t q d
  rw [ex, ey]
  rfl

/-- The first accumulator's update: the minimum with the infimum over this point's column block. -/
theorem rowAcc_apply (c : Dev nD) (t : Fin cfg0.N) (acc : Vec Ideal S1024 .f32) (r : Fin 1024) :
    rowAcc (xblk m c t) (yblk m c t) acc (ix1 r)
      = min (acc (ix1 r)) (⨅ q : Fin 1024, P (xarr m c) (yarr m c) (bOf t) (rowIx (iOf t) r) (rowIx (jOf t) q)) := by
  show k0_pay2 (F := Ideal) (k0_pay10 (xblk m c t) (yblk m c t)) (k0_pay11 (xblk m c t) (yblk m c t)) k0_pay12 acc (ix1 r) = _
  rw [pay2_apply]
  exact congrArg (min (acc (ix1 r))) (iInf_congr fun q => dist_blk m c t r q)

/-- The second accumulator's update: inside this point's slab the minimum with the infimum over this point's row
    block, outside it nothing. -/
theorem colAcc_apply (c : Dev nD) (t : Fin cfg0.N) (acc : Vec Ideal S8192 .f32) (q : Fin 8192) :
    colAcc (grid0.coords t) (xblk m c t) (yblk m c t) acc (ix1 q)
      = if (jOf t).val * 1024 ≤ q.val ∧ q.val < (jOf t).val * 1024 + 1024
        then min (acc (ix1 q)) (⨅ r : Fin 1024, P (xarr m c) (yarr m c) (bOf t) (rowIx (iOf t) r) q)
        else acc (ix1 q) := by
  have hgen : ∀ (off : ℕ) (ho : off + 1024 ≤ 8192), off = (jOf t).val * 1024 →
      upd off ho acc (k0_pay3 (F := Ideal) (k0_pay10 (xblk m c t) (yblk m c t)) (k0_pay11 (xblk m c t) (yblk m c t)) k0_pay12 (slab off ho acc)) (ix1 q)
        = if (jOf t).val * 1024 ≤ q.val ∧ q.val < (jOf t).val * 1024 + 1024
          then min (acc (ix1 q)) (⨅ r : Fin 1024, P (xarr m c) (yarr m c) (bOf t) (rowIx (iOf t) r) q)
          else acc (ix1 q) := by
    intro off ho e
    subst e
    by_cases hq : (jOf t).val * 1024 ≤ q.val ∧ q.val < (jOf t).val * 1024 + 1024
    · rw [if_pos hq, upd_apply_in _ _ _ _ q hq, pay3_apply, slab_apply]
      have eq : (⟨(jOf t).val * 1024 + (⟨q.val - (jOf t).val * 1024, by omega⟩ : Fin 1024).val, by omega⟩ : Fin 8192) = q :=
        Fin.ext (by show (jOf t).val * 1024 + (q.val - (jOf t).val * 1024) = q.val; omega)
      rw [eq]
      refine congrArg (min (acc (ix1 q))) (iInf_congr fun r => ?_)
      rw [dist_blk]
      exact congrArg (P (xarr m c) (yarr m c) (bOf t) (rowIx (iOf t) r)) (Fin.ext (by
        show (jOf t).val * 1024 + (q.val - (jOf t).val * 1024) = q.val; omega))
    · rw [if_neg hq, upd_apply_out _ _ _ _ q hq]
  exact hgen (k0_off1 (grid0.coords t) 0) (hoff (grid0.coords t)) (off_eq t)

/-- ONE POINT. If before point t = (b, i, j) the first accumulator holds the infima over column blocks 0 … j - 1 and
    the second the infima over row blocks 0 … i where its index lies in column blocks 0 … j - 1 and over row blocks
    0 … i - 1 elsewhere, then after it the same holds with j in place of j - 1. -/
theorem step (c : Dev nD) (t : Fin cfg0.N) (acc0 : Vec Ideal S1024 .f32) (acc1 : Vec Ideal S8192 .f32)
    (h0 : ∀ r : Fin 1024, acc0 (ix1 r)
      = infBelow (fun mm => P (xarr m c) (yarr m c) (bOf t) (rowIx (iOf t) r) mm) ((jOf t).val * 1024))
    (h1 : ∀ q : Fin 8192, acc1 (ix1 q)
      = infBelow (fun nn => P (xarr m c) (yarr m c) (bOf t) nn q)
          (if q.val < (jOf t).val * 1024 then (iOf t).val * 1024 + 1024 else (iOf t).val * 1024)) :
    (∀ r : Fin 1024, rowAcc (xblk m c t) (yblk m c t) acc0 (ix1 r)
      = infBelow (fun mm => P (xarr m c) (yarr m c) (bOf t) (rowIx (iOf t) r) mm) ((jOf t).val * 1024 + 1024))
    ∧ (∀ q : Fin 8192, colAcc (grid0.coords t) (xblk m c t) (yblk m c t) acc1 (ix1 q)
      = infBelow (fun nn => P (xarr m c) (yarr m c) (bOf t) nn q)
          (if q.val < (jOf t).val * 1024 + 1024 then (iOf t).val * 1024 + 1024 else (iOf t).val * 1024)) := by
  have hj : (jOf t).val < 8 := (jOf t).isLt
  have hi : (iOf t).val < 8 := (iOf t).isLt
  refine ⟨fun r => ?_, fun q => ?_⟩
  · rw [rowAcc_apply, h0]
    exact infBelow_add (fun mm => P (xarr m c) (yarr m c) (bOf t) (rowIx (iOf t) r) mm) ((jOf t).val * 1024) 1024 (by omega)
  · rw [colAcc_apply, h1]
    by_cases hq : (jOf t).val * 1024 ≤ q.val ∧ q.val < (jOf t).val * 1024 + 1024
    · rw [if_pos hq, if_neg (by omega), if_pos hq.2]
      exact infBelow_add (fun nn => P (xarr m c) (yarr m c) (bOf t) nn q) ((iOf t).val * 1024) 1024 (by omega)
    · rw [if_neg hq]
      by_cases hlt : q.val < (jOf t).val * 1024
      · rw [if_pos hlt, if_pos (by omega)]
      · rw [if_neg hlt, if_neg (by omega)]

/-! ## What each case leaves -/

/-- The two accumulators after a point of case A. -/
theorem scr_A (c : Dev nD) (t : Fin cfg0.N) (h0 : t.val % 8 = 0) (h1 : t.val % 64 = 0) (h2 : ¬t.val % 8 = 7) (h3 : ¬t.val % 64 = 63) :
    (outsAt0 m c t.val t.isLt).2.2.1 = rowAcc (xblk m c t) (yblk m c t) (k0_pay6 (F := Ideal))
    ∧ (outsAt0 m c t.val t.isLt).2.2.2 = colAcc (grid0.coords t) (xblk m c t) (yblk m c t) (k0_pay7 (F := Ideal)) := by
  rw [outsAt0_A m c t h0 h1 h2 h3]
  dsimp only
  exact ⟨sout_A_0 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) ((hcond0_1 t).mpr h1) (fun h => h2 ((hcond0_2 t).mp h)) (fun h => h3 ((hcond0_3 t).mp h)) (xblk m c t) (yblk m c t),
    sout_A_1 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) ((hcond0_1 t).mpr h1) (fun h => h2 ((hcond0_2 t).mp h)) (fun h => h3 ((hcond0_3 t).mp h)) (xblk m c t) (yblk m c t)⟩

/-- The two accumulators after a point of case B. -/
theorem scr_B (c : Dev nD) (t : Fin cfg0.N) (h0 : ¬t.val % 8 = 0) (h1 : ¬t.val % 64 = 0) (h2 : ¬t.val % 8 = 7) (h3 : ¬t.val % 64 = 63) :
    (outsAt0 m c t.val t.isLt).2.2.1 = rowAcc (xblk m c t) (yblk m c t) (outsAt0 m c (t.val - 1) (Nat.lt_of_le_of_lt (Nat.sub_le _ _) t.isLt)).2.2.1
    ∧ (outsAt0 m c t.val t.isLt).2.2.2 = colAcc (grid0.coords t) (xblk m c t) (yblk m c t) (outsAt0 m c (t.val - 1) (Nat.lt_of_le_of_lt (Nat.sub_le _ _) t.isLt)).2.2.2 := by
  rw [outsAt0_B m c t h0 h1 h2 h3]
  dsimp only
  exact ⟨sout_B_0 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (fun h => h2 ((hcond0_2 t).mp h)) (fun h => h3 ((hcond0_3 t).mp h)) (xblk m c t) (yblk m c t) (outsAt0 m c (t.val - 1) (Nat.lt_of_le_of_lt (Nat.sub_le _ _) t.isLt)).2.2.1 (outsAt0 m c (t.val - 1) (Nat.lt_of_le_of_lt (Nat.sub_le _ _) t.isLt)).2.2.2,
    sout_B_1 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (fun h => h2 ((hcond0_2 t).mp h)) (fun h => h3 ((hcond0_3 t).mp h)) (xblk m c t) (yblk m c t) (outsAt0 m c (t.val - 1) (Nat.lt_of_le_of_lt (Nat.sub_le _ _) t.isLt)).2.2.1 (outsAt0 m c (t.val - 1) (Nat.lt_of_le_of_lt (Nat.sub_le _ _) t.isLt)).2.2.2⟩

/-- The two accumulators after a point of case C. -/
theorem scr_C (c : Dev nD) (t : Fin cfg0.N) (h0 : ¬t.val % 8 = 0) (h1 : ¬t.val % 64 = 0) (h2 : t.val % 8 = 7) (h3 : ¬t.val % 64 = 63) :
    (outsAt0 m c t.val t.isLt).2.2.1 = rowAcc (xblk m c t) (yblk m c t) (outsAt0 m c (t.val - 1) (Nat.lt_of_le_of_lt (Nat.sub_le _ _) t.isLt)).2.2.1
    ∧ (outsAt0 m c t.val t.isLt).2.2.2 = colAcc (grid0.coords t) (xblk m c t) (yblk m c t) (outsAt0 m c (t.val - 1) (Nat.lt_of_le_of_lt (Nat.sub_le _ _) t.isLt)).2.2.2 := by
  rw [outsAt0_C m c t h0 h1 h2 h3]
  dsimp only
  exact ⟨sout_C_0 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) (xblk m c t) (yblk m c t) (outsAt0 m c (t.val - 1) (Nat.lt_of_le_of_lt (Nat.sub_le _ _) t.isLt)).2.2.1 (outsAt0 m c (t.val - 1) (Nat.lt_of_le_of_lt (Nat.sub_le _ _) t.isLt)).2.2.2,
    sout_C_1 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) (xblk m c t) (yblk m c t) (outsAt0 m c (t.val - 1) (Nat.lt_of_le_of_lt (Nat.sub_le _ _) t.isLt)).2.2.1 (outsAt0 m c (t.val - 1) (Nat.lt_of_le_of_lt (Nat.sub_le _ _) t.isLt)).2.2.2⟩

/-- The two accumulators after a point of case D. -/
theorem scr_D (c : Dev nD) (t : Fin cfg0.N) (h0 : t.val % 8 = 0) (h1 : ¬t.val % 64 = 0) (h2 : ¬t.val % 8 = 7) (h3 : ¬t.val % 64 = 63) :
    (outsAt0 m c t.val t.isLt).2.2.1 = rowAcc (xblk m c t) (yblk m c t) (k0_pay6 (F := Ideal))
    ∧ (outsAt0 m c t.val t.isLt).2.2.2 = colAcc (grid0.coords t) (xblk m c t) (yblk m c t) (outsAt0 m c (t.val - 1) (Nat.lt_of_le_of_lt (Nat.sub_le _ _) t.isLt)).2.2.2 := by
  rw [outsAt0_D m c t h0 h1 h2 h3]
  dsimp only
  exact ⟨sout_D_0 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (fun h => h2 ((hcond0_2 t).mp h)) (fun h => h3 ((hcond0_3 t).mp h)) (xblk m c t) (yblk m c t) (outsAt0 m c (t.val - 1) (Nat.lt_of_le_of_lt (Nat.sub_le _ _) t.isLt)).2.2.2,
    sout_D_1 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (fun h => h2 ((hcond0_2 t).mp h)) (fun h => h3 ((hcond0_3 t).mp h)) (xblk m c t) (yblk m c t) (outsAt0 m c (t.val - 1) (Nat.lt_of_le_of_lt (Nat.sub_le _ _) t.isLt)).2.2.2⟩

/-- The two accumulators after a point of case E. -/
theorem scr_E (c : Dev nD) (t : Fin cfg0.N) (h0 : ¬t.val % 8 = 0) (h1 : ¬t.val % 64 = 0) (h2 : t.val % 8 = 7) (h3 : t.val % 64 = 63) :
    (outsAt0 m c t.val t.isLt).2.2.1 = rowAcc (xblk m c t) (yblk m c t) (outsAt0 m c (t.val - 1) (Nat.lt_of_le_of_lt (Nat.sub_le _ _) t.isLt)).2.2.1
    ∧ (outsAt0 m c t.val t.isLt).2.2.2 = colAcc (grid0.coords t) (xblk m c t) (yblk m c t) (outsAt0 m c (t.val - 1) (Nat.lt_of_le_of_lt (Nat.sub_le _ _) t.isLt)).2.2.2 := by
  rw [outsAt0_E m c t h0 h1 h2 h3]
  dsimp only
  exact ⟨sout_E_0 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) ((hcond0_3 t).mpr h3) (xblk m c t) (yblk m c t) (outsAt0 m c (t.val - 1) (Nat.lt_of_le_of_lt (Nat.sub_le _ _) t.isLt)).2.2.1 (outsAt0 m c (t.val - 1) (Nat.lt_of_le_of_lt (Nat.sub_le _ _) t.isLt)).2.2.2,
    sout_E_1 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) ((hcond0_3 t).mpr h3) (xblk m c t) (yblk m c t) (outsAt0 m c (t.val - 1) (Nat.lt_of_le_of_lt (Nat.sub_le _ _) t.isLt)).2.2.1 (outsAt0 m c (t.val - 1) (Nat.lt_of_le_of_lt (Nat.sub_le _ _) t.isLt)).2.2.2⟩

/-- The first output block after a point of case C: the first accumulator as that point leaves it, with two unit axes in front. -/
theorem o2_C (c : Dev nD) (t : Fin cfg0.N) (h0 : ¬t.val % 8 = 0) (h1 : ¬t.val % 64 = 0) (h2 : t.val % 8 = 7) (h3 : ¬t.val % 64 = 63) :
    (outsAt0 m c t.val t.isLt).1 = k0_pay4 (rowAcc (xblk m c t) (yblk m c t) (outsAt0 m c (t.val - 1) (Nat.lt_of_le_of_lt (Nat.sub_le _ _) t.isLt)).2.2.1) := by
  rw [outsAt0_C m c t h0 h1 h2 h3]
  dsimp only
  exact out_C_2 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) (xblk m c t) (yblk m c t) (outsAt0 m c (t.val - 1) (Nat.lt_of_le_of_lt (Nat.sub_le _ _) t.isLt)).2.2.1 (outsAt0 m c (t.val - 1) (Nat.lt_of_le_of_lt (Nat.sub_le _ _) t.isLt)).2.2.2

/-- The first output block after a point of case E: the first accumulator as that point leaves it, with two unit axes in front. -/
theorem o2_E (c : Dev nD) (t : Fin cfg0.N) (h0 : ¬t.val % 8 = 0) (h1 : ¬t.val % 64 = 0) (h2 : t.val % 8 = 7) (h3 : t.val % 64 = 63) :
    (outsAt0 m c t.val t.isLt).1 = k0_pay4 (rowAcc (xblk m c t) (yblk m c t) (outsAt0 m c (t.val - 1) (Nat.lt_of_le_of_lt (Nat.sub_le _ _) t.isLt)).2.2.1) := by
  rw [outsAt0_E m c t h0 h1 h2 h3]
  dsimp only
  exact out_E_2 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) ((hcond0_3 t).mpr h3) (xblk m c t) (yblk m c t) (outsAt0 m c (t.val - 1) (Nat.lt_of_le_of_lt (Nat.sub_le _ _) t.isLt)).2.2.1 (outsAt0 m c (t.val - 1) (Nat.lt_of_le_of_lt (Nat.sub_le _ _) t.isLt)).2.2.2

/-- The second output block after a point of case E: the second accumulator as that point leaves it, with two unit axes in front. -/
theorem o3_E (c : Dev nD) (t : Fin cfg0.N) (h0 : ¬t.val % 8 = 0) (h1 : ¬t.val % 64 = 0) (h2 : t.val % 8 = 7) (h3 : t.val % 64 = 63) :
    (outsAt0 m c t.val t.isLt).2.1 = k0_pay5 (colAcc (grid0.coords t) (xblk m c t) (yblk m c t) (outsAt0 m c (t.val - 1) (Nat.lt_of_le_of_lt (Nat.sub_le _ _) t.isLt)).2.2.2) := by
  rw [outsAt0_E m c t h0 h1 h2 h3]
  dsimp only
  exact out_E_3 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) ((hcond0_3 t).mpr h3) (xblk m c t) (yblk m c t) (outsAt0 m c (t.val - 1) (Nat.lt_of_le_of_lt (Nat.sub_le _ _) t.isLt)).2.2.1 (outsAt0 m c (t.val - 1) (Nat.lt_of_le_of_lt (Nat.sub_le _ _) t.isLt)).2.2.2

/-! ## Along the grid -/

/-- The accumulators after point `t` hold the partial infima. -/
def Holds (c : Dev nD) (t : Fin cfg0.N) : Prop :=
  (∀ r : Fin 1024, (outsAt0 m c t.val t.isLt).2.2.1 (ix1 r)
      = infBelow (fun mm => P (xarr m c) (yarr m c) (bOf t) (rowIx (iOf t) r) mm) ((jOf t).val * 1024 + 1024))
  ∧ (∀ q : Fin 8192, (outsAt0 m c t.val t.isLt).2.2.2 (ix1 q)
      = infBelow (fun nn => P (xarr m c) (yarr m c) (bOf t) nn q)
          (if q.val < (jOf t).val * 1024 + 1024 then (iOf t).val * 1024 + 1024 else (iOf t).val * 1024))

theorem holds (c : Dev nD) : ∀ (n : ℕ) (hn : n < cfg0.N), Holds m c ⟨n, hn⟩ := by
  intro n
  induction n with
  | zero =>
    intro hn
    obtain ⟨e0, e1⟩ := scr_A m c ⟨0, hn⟩ rfl rfl (by show ¬0 % 8 = 7; omega) (by show ¬0 % 64 = 63; omega)
    have wi : (iOf ⟨0, hn⟩).val = 0 := by show 0 / 8 % 8 = 0; omega
    have wj : (jOf ⟨0, hn⟩).val = 0 := by show 0 % 8 = 0; omega
    unfold Holds
    rw [e0, e1]
    refine step m c ⟨0, hn⟩ _ _ (fun r => ?_) (fun q => ?_)
    · rw [pay6_apply, wj]
      exact (infBelow_zero _).symm
    · rw [pay7_apply, wj, wi, if_neg (by omega)]
      exact (infBelow_zero _).symm
  | succ n ih =>
    intro hn
    have hN : n + 1 < 256 := lt_of_lt_of_eq hn (show cfg0.N = 256 from N_0)
    have hp : n < cfg0.N := Nat.lt_of_succ_lt hn
    obtain ⟨p0, p1⟩ := ih hp
    -- the point before, in coordinates
    have vb : (bOf ⟨n, hp⟩).val = n / 64 := rfl
    have vi : (iOf ⟨n, hp⟩).val = n / 8 % 8 := rfl
    have vj : (jOf ⟨n, hp⟩).val = n % 8 := rfl
    have wb : (bOf ⟨n + 1, hn⟩).val = (n + 1) / 64 := rfl
    have wi : (iOf ⟨n + 1, hn⟩).val = (n + 1) / 8 % 8 := rfl
    have wj : (jOf ⟨n + 1, hn⟩).val = (n + 1) % 8 := rfl
    unfold Holds
    by_cases h0 : (n + 1) % 8 = 0
    · by_cases h1 : (n + 1) % 64 = 0
      · -- a new cloud: both accumulators restart
        obtain ⟨e0, e1⟩ := scr_A m c ⟨n + 1, hn⟩ h0 h1 (by show ¬(n + 1) % 8 = 7; omega) (by show ¬(n + 1) % 64 = 63; omega)
        rw [e0, e1]
        refine step m c ⟨n + 1, hn⟩ _ _ (fun r => ?_) (fun q => ?_)
        · rw [pay6_apply, wj, h0]
          exact (infBelow_zero _).symm
        · rw [pay7_apply, wj, wi, h0]
          have : (n + 1) / 8 % 8 = 0 := by omega
          rw [this, if_neg (by omega)]
          exact (infBelow_zero _).symm
      · -- a new row block of the same cloud: the first accumulator restarts, the second goes on
        obtain ⟨e0, e1⟩ := scr_D m c ⟨n + 1, hn⟩ h0 h1 (by show ¬(n + 1) % 8 = 7; omega) (by show ¬(n + 1) % 64 = 63; omega)
        rw [e0, e1]
        have eb : bOf ⟨n, hp⟩ = bOf ⟨n + 1, hn⟩ := Fin.ext (by rw [vb, wb]; omega)
        refine step m c ⟨n + 1, hn⟩ _ _ (fun r => ?_) (fun q => ?_)
        · rw [pay6_apply, wj, h0]
          exact (infBelow_zero _).symm
        · show (outsAt0 m c n hp).2.2.2 (ix1 q) = _
          have hq : q.val < 8192 := q.isLt
          have e : n / 8 % 8 * 1024 + 1024 = (n + 1) / 8 % 8 * 1024 := by omega
          rw [p1 q, eb, vj, vi, wj, wi, h0, if_pos (show q.val < n % 8 * 1024 + 1024 by omega),
            if_neg (show ¬q.val < 0 * 1024 by omega), e]
    · -- the row block goes on: both accumulators go on
      have eb : bOf ⟨n, hp⟩ = bOf ⟨n + 1, hn⟩ := Fin.ext (by rw [vb, wb]; omega)
      have ei : iOf ⟨n, hp⟩ = iOf ⟨n + 1, hn⟩ := Fin.ext (by rw [vi, wi]; omega)
      have ej : (jOf ⟨n, hp⟩).val * 1024 + 1024 = (jOf ⟨n + 1, hn⟩).val * 1024 := by rw [vj, wj]; omega
      have hstep : ∀ (a0 : Vec Ideal S1024 .f32) (a1 : Vec Ideal S8192 .f32), a0 = (outsAt0 m c n hp).2.2.1 → a1 = (outsAt0 m c n hp).2.2.2 →
          (∀ r : Fin 1024, rowAcc (xblk m c ⟨n + 1, hn⟩) (yblk m c ⟨n + 1, hn⟩) a0 (ix1 r)
            = infBelow (fun mm => P (xarr m c) (yarr m c) (bOf ⟨n + 1, hn⟩) (rowIx (iOf ⟨n + 1, hn⟩) r) mm) ((jOf ⟨n + 1, hn⟩).val * 1024 + 1024))
          ∧ (∀ q : Fin 8192, colAcc (grid0.coords ⟨n + 1, hn⟩) (xblk m c ⟨n + 1, hn⟩) (yblk m c ⟨n + 1, hn⟩) a1 (ix1 q)
            = infBelow (fun nn => P (xarr m c) (yarr m c) (bOf ⟨n + 1, hn⟩) nn q)
                (if q.val < (jOf ⟨n + 1, hn⟩).val * 1024 + 1024 then (iOf ⟨n + 1, hn⟩).val * 1024 + 1024 else (iOf ⟨n + 1, hn⟩).val * 1024)) := by
        intro a0 a1 ea0 ea1
        subst ea0; subst ea1
        refine step m c ⟨n + 1, hn⟩ _ _ (fun r => ?_) (fun q => ?_)
        · rw [p0 r, eb, ei, ej]
        · rw [p1 q, eb, ei, ej]
      by_cases h2 : (n + 1) % 8 = 7
      · by_cases h3 : (n + 1) % 64 = 63
        · obtain ⟨e0, e1⟩ := scr_E m c ⟨n + 1, hn⟩ h0 (by show ¬(n + 1) % 64 = 0; omega) h2 h3
          rw [e0, e1]
          exact hstep _ _ rfl rfl
        · obtain ⟨e0, e1⟩ := scr_C m c ⟨n + 1, hn⟩ h0 (by show ¬(n + 1) % 64 = 0; omega) h2 h3
          rw [e0, e1]
          exact hstep _ _ rfl rfl
      · obtain ⟨e0, e1⟩ := scr_B m c ⟨n + 1, hn⟩ h0 (by show ¬(n + 1) % 64 = 0; omega) h2 (by show ¬(n + 1) % 64 = 63; omega)
        rw [e0, e1]
        exact hstep _ _ rfl rfl

/-! ## The statements the other modules use -/

theorem scratch0_eq (c : Dev nD) (t : Fin cfg0.N) (r : Fin 1024) :
    (outsAt0 m c t.val t.isLt).2.2.1 (ix1 r)
      = infBelow (fun mm => P (xarr m c) (yarr m c) (bOf t) (rowIx (iOf t) r) mm) ((jOf t).val * 1024 + 1024) :=
  (holds m c t.val t.isLt).1 r

theorem scratch1_eq (c : Dev nD) (t : Fin cfg0.N) (q : Fin 8192) :
    (outsAt0 m c t.val t.isLt).2.2.2 (ix1 q)
      = infBelow (fun nn => P (xarr m c) (yarr m c) (bOf t) nn q)
          (if q.val < (jOf t).val * 1024 + 1024 then (iOf t).val * 1024 + 1024 else (iOf t).val * 1024) :=
  (holds m c t.val t.isLt).2 q

/-- At the last column block of a row block the first output's block is stored: the whole row minima. -/
theorem out2_eq (c : Dev nD) (t : Fin cfg0.N) (h7 : t.val % 8 = 7) (r : Fin 1024) :
    (outsAt0 m c t.val t.isLt).1 (ix3 (0 : Fin 1) (0 : Fin 1) r) = rowMin (xarr m c) (yarr m c) (bOf t) (rowIx (iOf t) r) := by
  have hN : t.val < 256 := N_lt t
  have hs := scratch0_eq m c t r
  have wj : (jOf t).val = t.val % 8 := rfl
  rw [wj, h7, infBelow_of_le _ (by omega)] at hs
  have h0 : ¬t.val % 8 = 0 := by omega
  have h1 : ¬t.val % 64 = 0 := by omega
  by_cases h3 : t.val % 64 = 63
  · rw [o2_E m c t h0 h1 h7 h3, pay4_apply, ← (scr_E m c t h0 h1 h7 h3).1]
    exact hs
  · rw [o2_C m c t h0 h1 h7 h3, pay4_apply, ← (scr_C m c t h0 h1 h7 h3).1]
    exact hs

/-- At the last point of a cloud the second output's block is stored: the whole column minima. -/
theorem out3_eq (c : Dev nD) (t : Fin cfg0.N) (h63 : t.val % 64 = 63) (q : Fin 8192) :
    (outsAt0 m c t.val t.isLt).2.1 (ix3 (0 : Fin 1) (0 : Fin 1) q) = colMin (xarr m c) (yarr m c) (bOf t) q := by
  have hN : t.val < 256 := N_lt t
  have hq : q.val < 8192 := q.isLt
  have hs := scratch1_eq m c t q
  have wj : (jOf t).val = t.val % 8 := rfl
  have wi : (iOf t).val = t.val / 8 % 8 := rfl
  have e7 : t.val % 8 = 7 := by omega
  have i7 : t.val / 8 % 8 = 7 := by omega
  rw [wj, wi, e7, i7, if_pos (by omega), infBelow_of_le _ (by omega)] at hs
  have h0 : ¬t.val % 8 = 0 := by omega
  have h1 : ¬t.val % 64 = 0 := by omega
  rw [o3_E m c t h0 h1 e7 h63, pay5_apply, ← (scr_E m c t h0 h1 e7 h63).2]
  exact hs

end Cert.Chamfer.Inv

end
-- ==== Proof.Flush.lean ====
/-
  The two result arrays of the kernel region: every block of the first is written back once, at the last column block
  of its row block, and holds the row minima; every block of the second once, at the last point of its cloud, and holds
  the column minima. The blocks written back tile each array.
-/
import proofs.«177700_j70927089926224_1_alg».proof.Proof.Invariant

noncomputable section

namespace Cert.Chamfer.Out

open Idealize.ShloMosaic Idealize.ShloMosaic.TcCoe Idealize.SL.Sem Idealize.ShloMosaic.ValueIdx Cert.KernelIdeal Cert.KernelIdeal.Gen Cert.Chamfer
open Idealize.ShloMosaic.Pipeline (Dat)
open Cert.Chamfer.Blk

variable (m : (ℓ : Loc nD τ sig) → Buf (Elt Ideal) ℓ)

/-- The first result array [4, 1, 8192]: the row minima. -/
def out0Arr (c : Dev nD) : Buf (Elt Ideal) ((c : Thread nD τ).loc main_v0_0) := fun i => rowMin (xarr m c) (yarr m c) (i 0) (i 2)
/-- The second result array [4, 1, 8192]: the column minima. -/
def out1Arr (c : Dev nD) : Buf (Elt Ideal) ((c : Thread nD τ).loc main_v0_1) := fun i => colMin (xarr m c) (yarr m c) (i 0) (i 2)

/-- Where the first result's block lies at point t: cloud t / 64, the one middle coordinate, row block t / 8 mod 8. -/
theorem rowBlock_index : ∀ t : Fin cfg0.N, win0_2.index t (0 : Fin 3) = t.val / 64 ∧ win0_2.index t (1 : Fin 3) = 0 ∧ win0_2.index t (2 : Fin 3) = t.val / 8 % 8 :=
  (by decide +kernel : ∀ t : Fin grid0.N, _)

/-- Where the second result's block lies at point t: cloud t / 64, and the whole of the other two axes. -/
theorem colBlock_index : ∀ t : Fin cfg0.N, win0_3.index t (0 : Fin 3) = t.val / 64 ∧ win0_3.index t (1 : Fin 3) = 0 ∧ win0_3.index t (2 : Fin 3) = 0 :=
  (by decide +kernel : ∀ t : Fin grid0.N, _)

/-- The block of the first result that point t stores, read at an index of the block, is the first result array read
    where the block lies: cloud t / 64, rows 1024 (t / 8 mod 8) and on. -/
theorem rowBlock_read (c : Dev nD) (t : Fin cfg0.N) (h7 : t.val % 8 = 7) (y : S1x1x1024.Idx) :
    (outsAt0 m c t.val t.isLt).1 y = out0Arr m c (((cfg0.win 2).blk t).view.emb y) := by
  obtain ⟨e0, e1, e2⟩ := rowBlock_index t
  have h0 : (y 0).val < 1 := (y 0).isLt
  have h1 : (y 1).val < 1 := (y 1).isLt
  have hy0 : y 0 = (0 : Fin 1) := Fin.ext (by show (y 0).val = 0; omega)
  have hy1 : y 1 = (0 : Fin 1) := Fin.ext (by show (y 1).val = 0; omega)
  have hy : y = ix3 (0 : Fin 1) (0 : Fin 1) (y 2) := by
    funext a
    match a with
    | ⟨0, _⟩ => exact hy0
    | ⟨1, _⟩ => exact hy1
    | ⟨2, _⟩ => rfl
  have a0 : bOf t = (((cfg0.win 2).blk t).view.emb y) 0 := by
    apply Fin.ext
    show t.val / 64 = win0_2.index t (0 : Fin 3) * 1 + 1 * (y 0).val
    omega
  have a2 : rowIx (iOf t) (y 2) = (((cfg0.win 2).blk t).view.emb y) 2 := by
    apply Fin.ext
    show t.val / 8 % 8 * 1024 + (y 2).val = win0_2.index t (2 : Fin 3) * 1024 + 1 * (y 2).val
    omega
  refine (congrArg (outsAt0 m c t.val t.isLt).1 hy).trans ?_
  refine (Inv.out2_eq m c t h7 (y 2)).trans ?_
  exact congrArg₂ (rowMin (xarr m c) (yarr m c)) a0 a2

/-- What a point with t mod 8 = 7 writes back to the first result is the row minima read through its block. -/
theorem rowBlock_flushed (c : Dev nD) (t : Fin cfg0.N) (hf : (cfg0.win 2).flush t = true) :
    (dats m 0 c).flushed 2 t = ((cfg0.win 2).blk t).view.read (Elt Ideal) (out0Arr m c) := by
  have h7 : t.val % 8 = 7 := (flush0_2 t).mp hf
  show (cfg0.win 2).cut (grid0.coords t) ((dats m 0 c).after 2 t) = _
  rw [after0_2]
  funext y
  exact rowBlock_read m c t h7 y

/-- The block of the second result that point t stores, read at an index of the block, is the second result array read
    where the block lies: cloud t / 64, all 8192 columns. -/
theorem colBlock_read (c : Dev nD) (t : Fin cfg0.N) (h63 : t.val % 64 = 63) (y : S1x1x8192.Idx) :
    (outsAt0 m c t.val t.isLt).2.1 y = out1Arr m c (((cfg0.win 3).blk t).view.emb y) := by
  obtain ⟨e0, e1, e2⟩ := colBlock_index t
  have h0 : (y 0).val < 1 := (y 0).isLt
  have h1 : (y 1).val < 1 := (y 1).isLt
  have hy0 : y 0 = (0 : Fin 1) := Fin.ext (by show (y 0).val = 0; omega)
  have hy1 : y 1 = (0 : Fin 1) := Fin.ext (by show (y 1).val = 0; omega)
  have hy : y = ix3 (0 : Fin 1) (0 : Fin 1) (y 2) := by
    funext a
    match a with
    | ⟨0, _⟩ => exact hy0
    | ⟨1, _⟩ => exact hy1
    | ⟨2, _⟩ => rfl
  have a0 : bOf t = (((cfg0.win 3).blk t).view.emb y) 0 := by
    apply Fin.ext
    show t.val / 64 = win0_3.index t (0 : Fin 3) * 1 + 1 * (y 0).val
    omega
  have a2 : y 2 = (((cfg0.win 3).blk t).view.emb y) 2 := by
    apply Fin.ext
    show (y 2).val = win0_3.index t (2 : Fin 3) * 8192 + 1 * (y 2).val
    omega
  refine (congrArg (outsAt0 m c t.val t.isLt).2.1 hy).trans ?_
  refine (Inv.out3_eq m c t h63 (y 2)).trans ?_
  exact congrArg₂ (colMin (xarr m c) (yarr m c)) a0 a2

/-- What a point with t mod 64 = 63 writes back to the second result is the column minima read through its block. -/
theorem colBlock_flushed (c : Dev nD) (t : Fin cfg0.N) (hf : (cfg0.win 3).flush t = true) :
    (dats m 0 c).flushed 3 t = ((cfg0.win 3).blk t).view.read (Elt Ideal) (out1Arr m c) := by
  have h63 : t.val % 64 = 63 := (flush0_3 t).mp hf
  show (cfg0.win 3).cut (grid0.coords t) ((dats m 0 c).after 3 t) = _
  rw [after0_3]
  funext y
  exact colBlock_read m c t h63 y

/-- Every index (b, 0, n) of the first result lies in the block stored at the last column block of row block n / 1024
    of cloud b: the point 64 b + 8 (n / 1024) + 7. -/
theorem rowBlocks_cover (i : S4x1x8192.Idx) :
    ∃ t : Fin cfg0.N, (cfg0.win 2).flush t = true ∧ i ∈ ((cfg0.win 2).blk t).view.set := by
  have hN : cfg0.N = 256 := N_0
  have h0 : (i 0).val < 4 := (i 0).isLt
  have h1 : (i 1).val < 1 := (i 1).isLt
  have h2 : (i 2).val < 8192 := (i 2).isLt
  have hlt : 64 * (i 0).val + 8 * ((i 2).val / 1024) + 7 < cfg0.N := by rw [hN]; omega
  obtain ⟨t, ht⟩ : ∃ t : Fin cfg0.N, t.val = 64 * (i 0).val + 8 * ((i 2).val / 1024) + 7 := ⟨⟨_, hlt⟩, rfl⟩
  obtain ⟨e0, e1, e2⟩ := rowBlock_index t
  refine ⟨t, (flush0_2 t).mpr (by omega), ?_⟩
  show i ∈ ((View.whole main_v0_0).slice (win0_2.rect t)).set
  rw [View.set_slice_whole, Rect.mem_set_unit]
  intro a
  match a with
  | ⟨0, _⟩ =>
    show win0_2.index t (0 : Fin 3) * 1 ≤ (i 0).val ∧ (i 0).val < win0_2.index t (0 : Fin 3) * 1 + 1
    omega
  | ⟨1, _⟩ =>
    show win0_2.index t (1 : Fin 3) * 1 ≤ (i 1).val ∧ (i 1).val < win0_2.index t (1 : Fin 3) * 1 + 1
    omega
  | ⟨2, _⟩ =>
    show win0_2.index t (2 : Fin 3) * 1024 ≤ (i 2).val ∧ (i 2).val < win0_2.index t (2 : Fin 3) * 1024 + 1024
    omega

/-- Every index (b, 0, q) of the second result lies in the block stored at the last point of cloud b: 64 b + 63. -/
theorem colBlocks_cover (i : S4x1x8192.Idx) :
    ∃ t : Fin cfg0.N, (cfg0.win 3).flush t = true ∧ i ∈ ((cfg0.win 3).blk t).view.set := by
  have hN : cfg0.N = 256 := N_0
  have h0 : (i 0).val < 4 := (i 0).isLt
  have h1 : (i 1).val < 1 := (i 1).isLt
  have h2 : (i 2).val < 8192 := (i 2).isLt
  have hlt : 64 * (i 0).val + 63 < cfg0.N := by rw [hN]; omega
  obtain ⟨t, ht⟩ : ∃ t : Fin cfg0.N, t.val = 64 * (i 0).val + 63 := ⟨⟨_, hlt⟩, rfl⟩
  obtain ⟨e0, e1, e2⟩ := colBlock_index t
  refine ⟨t, (flush0_3 t).mpr (by omega), ?_⟩
  show i ∈ ((View.whole main_v0_1).slice (win0_3.rect t)).set
  rw [View.set_slice_whole, Rect.mem_set_unit]
  intro a
  match a with
  | ⟨0, _⟩ =>
    show win0_3.index t (0 : Fin 3) * 1 ≤ (i 0).val ∧ (i 0).val < win0_3.index t (0 : Fin 3) * 1 + 1
    omega
  | ⟨1, _⟩ =>
    show win0_3.index t (1 : Fin 3) * 1 ≤ (i 1).val ∧ (i 1).val < win0_3.index t (1 : Fin 3) * 1 + 1
    omega
  | ⟨2, _⟩ =>
    show win0_3.index t (2 : Fin 3) * 8192 ≤ (i 2).val ∧ (i 2).val < win0_3.index t (2 : Fin 3) * 8192 + 8192
    omega

theorem final2 (c : Dev nD) : (dats m 0 c).arrAt 2 cfg0.N = out0Arr m c := by
  exact (dats m 0 c).arrAt_eq_of_cover 2 (out0Arr m c) (rowBlock_flushed m c) rowBlocks_cover

theorem final3 (c : Dev nD) : (dats m 0 c).arrAt 3 cfg0.N = out1Arr m c := by
  exact (dats m 0 c).arrAt_eq_of_cover 3 (out1Arr m c) (colBlock_flushed m c) colBlocks_cover

end Cert.Chamfer.Out

end
-- ==== Proof.KernelRun.lean ====
/-
  The kernel program's run, read: after the region the host drops the unit axis of each result array, sums each family
  over the points of a cloud and adds the two sums.
-/
import proofs.«177700_j70927089926224_1_alg».proof.Proof.Flush
import Idealize.ShloMosaic.Lib.StableHlo.Run

noncomputable section

namespace Cert.Chamfer.KRun

open Idealize.ShloMosaic Idealize.ShloMosaic.TcCoe Idealize.SL.Sem Idealize.ShloMosaic.ValueIdx Cert.KernelIdeal Cert.KernelIdeal.Gen Cert.Chamfer
open Idealize.ShloMosaic.Pipeline (Dat)
open Cert.Chamfer.Blk Cert.Chamfer.Out

variable (m : (ℓ : Loc nD τ sig) → Buf (Elt Ideal) ℓ) (ρ : Dev nD → PrngReg)

/-- An `[a, 1, b]` array cast to `[a, b]` reads, at `(i, j)`, the operand at `(i, 0, j)`: the two indices have the
    same row-major position. -/
theorem shapeCast_a1b_ab_apply {α : Type} {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- The first result array with its unit axis dropped is the family of row minima. -/
theorem cast_out0 (c : Dev nD) :
    shapeCast S4x8192 (out0Arr m c) shapeCasts_S4x1x8192_S4x8192 = rowMinArr (xarr m c) (yarr m c) := by
  funext i
  rw [eq_ix2 i]
  exact shapeCast_a1b_ab_apply (out0Arr m c) shapeCasts_S4x1x8192_S4x8192 (i 0) (i 1)

/-- The second result array with its unit axis dropped is the family of column minima. -/
theorem cast_out1 (c : Dev nD) :
    shapeCast S4x8192 (out1Arr m c) shapeCasts_S4x1x8192_S4x8192 = colMinArr (xarr m c) (yarr m c) := by
  funext i
  rw [eq_ix2 i]
  exact shapeCast_a1b_ab_apply (out1Arr m c) shapeCasts_S4x1x8192_S4x8192 (i 0) (i 1)

/-- What the first result array holds when the host operations start: the row minima. -/
theorem arr_v0_0 (c : Dev nD) :
    Pipeline.withArrays (cfgs 0).spec c (V0 m c) (fun w => (dats m 0 c).arrAt w (cfgs 0).N) (Proc.devRef .tc main_v0_0)
      = out0Arr m c :=
  (Pipeline.withArrays_arr spec0 launch0.win.arr_inj c _ _ 2).trans (final2 m c)

/-- What the second result array holds when the host operations start: the column minima. -/
theorem arr_v0_1 (c : Dev nD) :
    Pipeline.withArrays (cfgs 0).spec c (V0 m c) (fun w => (dats m 0 c).arrAt w (cfgs 0).N) (Proc.devRef .tc main_v0_1)
      = out1Arr m c :=
  (Pipeline.withArrays_arr spec0 launch0.win.arr_inj c _ _ 3).trans (final3 m c)

/-- The host operations after the region leave the sum of the column minima plus the sum of the row minima: each
    reshape drops the unit axis of a result array, and the three operations that follow are the sums both programs
    end with, taken as one function of the two families. -/
theorem tail_v5 (c : Dev nD) :
    Pipeline.afterTail₀ cfgs (dats m) 0 (V0 m) [hostOps1] c main_v5
      = lossOf reducesTo_S4x8192_S4_d1 h_S_ (colMinArr (xarr m c) (yarr m c)) (rowMinArr (xarr m c) (yarr m c)) := by
  unfold Pipeline.afterTail₀
  show StableHlo.after hostOps1 _ (Proc.devRef .tc main_v5) = _
  after_results
  rw [arr_v0_0 m c, arr_v0_1 m c]
  exact congrArg₂ (lossOf reducesTo_S4x8192_S4_d1 h_S_) (cast_out1 m c) (cast_out0 m c)

/-- The result of the kernel program. -/
def result (c : Dev nD) : Buf (Elt Ideal) ((c : Thread nD τ).loc main_v5) :=
  lossOf reducesTo_S4x8192_S4_d1 h_S_ (colMinArr (xarr m c) (yarr m c)) (rowMinArr (xarr m c) (yarr m c))

theorem run : θ_run defs (onTc (τ := τ) (main (F := Ideal))) ⟨m, fun _ => 0, ρ⟩ fun r => ∀ c : Dev nD,
      r.2.mem ((c.tc : Thread nD τ).loc main_v5) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) := by
  -- the result is what the host operations leave; the two arguments are staged inputs, unchanged through the run
  exact (θ_run defs _ _).mono (fun r h c =>
    ⟨((h c).2 main_v5 (by decide)).trans (tail_v5 m c),
     ((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c)))⟩) (run_main m ρ)

end Cert.Chamfer.KRun

end
-- ==== Proof.Reference.lean ====
/-
  The reference program's stages, read: the distance array entry by entry, its minima along either point axis, and
  the sums it ends with.
-/
import proofs.«177700_j70927089926224_1_alg».proof.Proof.Gen.ReferenceIdeal.Read
import proofs.«177700_j70927089926224_1_alg».proof.Proof.Spec
import Idealize.ShloMosaic.PureOps.Reduce

noncomputable section

namespace Cert.Chamfer.Ref

open Idealize.ShloMosaic Idealize.ShloMosaic.TcCoe Idealize.SL.Sem Idealize.ShloMosaic.ValueIdx Cert.ReferenceIdeal Cert.ReferenceIdeal.Gen Cert.ReferenceIdeal.Read Cert.Chamfer

/-! ## The index maps of the reference's stages at (b, n, m)

  The squared norm of x's point is read through three layout stages (two broadcasts and the sum over the coordinate);
  composed, they read x at (b, n, k). Likewise for y at (b, m, k), and for the two operands of the inner product. -/

theorem idx_sqn_x (b : Fin 4) (n mm : Fin 8192) (k : Fin 3) :
    idx_main_v1 (idx_main_v5 (idx_main_v7 (ix3 b n mm))) k = ix3 b n k :=
  funext fun a => Fin.ext (by match a with | ⟨0, _⟩ => rfl | ⟨1, _⟩ => rfl | ⟨2, _⟩ => rfl)

theorem idx_sqn_y (b : Fin 4) (n mm : Fin 8192) (k : Fin 3) :
    idx_main_v3 (idx_main_v6 (idx_main_v8 (ix3 b n mm))) k = ix3 b mm k :=
  funext fun a => Fin.ext (by match a with | ⟨0, _⟩ => rfl | ⟨1, _⟩ => rfl | ⟨2, _⟩ => rfl)

theorem idx_dot_x (b : Fin 4) (n mm : Fin 8192) (k : Fin 3) :
    lidx_main_v4 (ix3 b n mm) k = ix3 b n k :=
  funext fun a => Fin.ext (by match a with | ⟨0, _⟩ => rfl | ⟨1, _⟩ => rfl | ⟨2, _⟩ => rfl)

theorem idx_dot_y (b : Fin 4) (n mm : Fin 8192) (k : Fin 3) :
    ridx_main_v4 (ix3 b n mm) k = ix3 b mm k :=
  funext fun a => Fin.ext (by match a with | ⟨0, _⟩ => rfl | ⟨1, _⟩ => rfl | ⟨2, _⟩ => rfl)

/-- Entry (b, n, m) of the reference's distance array is the distance of point n of x from point m of y in cloud b:
    the sums over the three coordinates start from zero, which adds nothing. -/
theorem v15_apply (x0 x1 : (⟨S4x8192x3, .f32⟩ : BufTy).Contents (Elt Ideal)) (b : Fin 4) (n mm : Fin 8192) :
    val_main_v15 (F := Ideal) x0 x1 (ix3 b n mm) = P x0 x1 b n mm := by
  rw [val_main_v15_apply, val_main_v14_apply, val_main_v12_apply, val_main_v9_apply, val_main_v7_apply, val_main_v5_apply,
    val_main_v1_apply, val_main_v8_apply, val_main_v6_apply, val_main_v3_apply, val_main_v11_apply, val_main_v10_apply,
    val_main_v4_apply, val_main_v13_apply, val_main_cst_apply, val_main_cst_0_apply, val_main_cst_1_apply, val_main_cst_2_apply]
  simp only [val_main_v0_apply, val_main_v2_apply, idx_sqn_x, idx_sqn_y, idx_dot_x, idx_dot_y, Ideal.mulf_def, Ideal.addf_def,
    Ideal.subf_def, Ideal.maximumf_def, Ideal.hostUnary_sqrt_def, Ideal.ofBits_def]
  unfold P dist pt sqn dot
  have h0 : ∀ z : EReal, Ideal.ofBits .f32 0x00000000#32 + z = z := fun z => by rw [Ideal.ofBits_zero_f32, zero_add]
  rw [h0, h0]

/-! ## The minima along either point axis

  A minimum reduction over one axis is, at each kept index, the fold of min from the largest value over that axis's
  coordinates, hence the minimum of the top element and the infimum of the family: the infimum itself. -/

/-- Inserting coordinate k on axis 1 over the kept index (b, q) gives (b, k, q). -/
theorem lift_col (b : Fin 4) (q : Fin 8192) (k : Fin 8192) :
    (by decide : S4x8192x8192.Reduces [1] S4x8192).lift (ix2 b q) k = ix3 b k q :=
  funext fun a => Fin.ext (by match a with | ⟨0, _⟩ => rfl | ⟨1, _⟩ => rfl | ⟨2, _⟩ => rfl)

/-- Reducing over x's points leaves, for each point of y, its distance to the nearest point of x. -/
theorem v16_eq (x0 x1 : (⟨S4x8192x3, .f32⟩ : BufTy).Contents (Elt Ideal)) :
    val_main_v16 (F := Ideal) x0 x1 = colMinArr x0 x1 := by
  funext i
  obtain ⟨b, q, rfl⟩ : ∃ (b : Fin 4) (q : Fin 8192), i = ix2 b q := ⟨i 0, i 1, eq_ix2 i⟩
  have hv := v15_apply x0 x1
  unfold val_main_v16
  generalize val_main_v15 (F := Ideal) x0 x1 = D at hv ⊢
  rw [Host.reduce_eq_fold_single (FloatOps.minimumf (F := Ideal) (φ := .f32)) D _ reducesTo_S4x8192x8192_S4x8192_d1 (by decide) h_S_]
  refine (fold_min_eq _ _).trans ?_
  rw [val_main_cst_3_apply, Ideal.ofBits_def, ofBits_inf, min_eq_right le_top]
  show (⨅ k : Fin 8192, D ((by decide : S4x8192x8192.Reduces [1] S4x8192).lift (ix2 b q) k)) = ⨅ n : Fin 8192, P x0 x1 b n q
  refine iInf_congr fun k => ?_
  rw [lift_col, hv]

/-- Inserting coordinate k on axis 2 over the kept index (b, n) gives (b, n, k). -/
theorem lift_row (b : Fin 4) (n : Fin 8192) (k : Fin 8192) :
    (by decide : S4x8192x8192.Reduces [2] S4x8192).lift (ix2 b n) k = ix3 b n k :=
  funext fun a => Fin.ext (by match a with | ⟨0, _⟩ => rfl | ⟨1, _⟩ => rfl | ⟨2, _⟩ => rfl)

/-- Reducing over y's points leaves, for each point of x, its distance to the nearest point of y. -/
theorem v18_eq (x0 x1 : (⟨S4x8192x3, .f32⟩ : BufTy).Contents (Elt Ideal)) :
    val_main_v18 (F := Ideal) x0 x1 = rowMinArr x0 x1 := by
  funext i
  obtain ⟨b, n, rfl⟩ : ∃ (b : Fin 4) (n : Fin 8192), i = ix2 b n := ⟨i 0, i 1, eq_ix2 i⟩
  have hv := v15_apply x0 x1
  unfold val_main_v18
  generalize val_main_v15 (F := Ideal) x0 x1 = D at hv ⊢
  rw [Host.reduce_eq_fold_single (FloatOps.minimumf (F := Ideal) (φ := .f32)) D _ reducesTo_S4x8192x8192_S4x8192_d2 (by decide) h_S_]
  refine (fold_min_eq _ _).trans ?_
  rw [val_main_cst_5_apply, Ideal.ofBits_def, ofBits_inf, min_eq_right le_top]
  show (⨅ k : Fin 8192, D ((by decide : S4x8192x8192.Reduces [2] S4x8192).lift (ix2 b n) k)) = ⨅ m : Fin 8192, P x0 x1 b n m
  refine iInf_congr fun k => ?_
  rw [lift_row, hv]

/-- The result: the two families summed over each cloud's points, and the two sums added. -/
theorem v20_eq (x0 x1 : (⟨S4x8192x3, .f32⟩ : BufTy).Contents (Elt Ideal)) :
    val_main_v20 (F := Ideal) x0 x1 = lossOf reducesTo_S4x8192_S4_d1 h_S_ (colMinArr x0 x1) (rowMinArr x0 x1) := by
  unfold val_main_v20 val_main_v19 val_main_v17 lossOf
  rw [v16_eq, v18_eq]
  rfl

end Cert.Chamfer.Ref

end
-- ==== Proof.lean ====
/-
  The certificate: the tiled kernel and the reference compute the same symmetric nearest-neighbour distance sums.

  Both programs form, for every pair of a point of x and a point of y of the same cloud, the distance
  sqrt (max ((|x|^2 + |y|^2) - 2 <x, y>) 0); the kernel spells the three-term sums out coordinate by coordinate where the
  reference contracts an axis, which is the same finite sum on the extended reals. Each then takes the minimum over
  either point axis — the kernel block by block, keeping running minima across the grid, the reference in one
  reduction: an infimum gathered block by block is the infimum — and both finish with the same three host operations.
  Only commutativity and associativity of the sum and the lattice structure of the minimum are used, so the
  precondition on the inputs is never opened.
-/
import proofs.«177700_j70927089926224_1_alg».proof.Defs
import proofs.«177700_j70927089926224_1_alg».proof.Proof.Gen.Kernel
import proofs.«177700_j70927089926224_1_alg».proof.Proof.Gen.Kernel.Frame
import proofs.«177700_j70927089926224_1_alg».proof.Proof.Gen.KernelIdeal
import proofs.«177700_j70927089926224_1_alg».proof.Proof.Gen.KernelIdeal.Frame
import proofs.«177700_j70927089926224_1_alg».proof.Proof.Gen.ReferenceIdeal
import proofs.«177700_j70927089926224_1_alg».proof.Proof.Gen.Pre_finite_inputs
import proofs.«177700_j70927089926224_1_alg».proof.Proof.Gen.ReferenceIdeal.Run
import proofs.«177700_j70927089926224_1_alg».proof.Proof.Gen.ReferenceIdeal.Read
import proofs.«177700_j70927089926224_1_alg».proof.Proof.KernelRun
import proofs.«177700_j70927089926224_1_alg».proof.Proof.Reference
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From arguments that agree both programs end at the same sums of the two families of minima. -/
theorem algebraic : Cert.algebraic_KernelIdeal_ReferenceIdeal := by
  intro m ρ m' ρ' _ hagree
  refine ⟨fun c => Cert.Chamfer.KRun.result m c, Cert.Chamfer.KRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, Cert.Chamfer.Ref.v20_eq, (hagree c).1, (hagree c).2]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
